-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x8192 : Shape := ⟨2, ![4096, 8192]⟩
abbrev S8192 : Shape := ⟨1, ![8192]⟩
abbrev S8192x64 : Shape := ⟨2, ![8192, 64]⟩
abbrev S64 : Shape := ⟨1, ![64]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_
  bcast_S_S8192x64 : S_.BroadcastsInDim S8192x64 (![] : Fin 0 → Fin S8192x64.rank)
  reducesTo_S8192x64_S_d0_1 : S8192x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S8192x64 .f32) (main_arg8 : FVec F S64 .f32) (main_v33 : IVec S_ 1) : IVec S_ 1 :=
  let main_v34 : FVec F S8192x64 .f32 := Host.absf main_arg7
  let main_cst_12 : FVec F S_ .f32 := constant S_ .f32 0x7F800000#32
  let main_v35 : FVec F S8192x64 .f32 := broadcastInDim S8192x64 ![] bcast_S_S8192x64 main_cst_12
  let main_v36 : IVec S8192x64 1 := cmpf .olt main_v34 main_v35
  let main_c_13 : IVec S_ 1 := constantI S_ 1 1#1
  let main_v37 : IVec S_ 1 := (fun x v => Host.reduce IntOp.andi x v reducesTo_S8192x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S4096x8192 .f32) (main_arg6 : FVec F S8192 .f32) (main_arg7 : FVec F S8192x64 .f32) (main_arg8 : FVec F S64 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_v33

def fn {F : FTy → Type} [FloatOps F] (main_arg0 : FVec F S1x4096 .f32) (main_arg1 : FVec F S4096x8192 .f32) (main_arg2 : FVec F S8192 .f32) (main_arg3 : FVec F S8192x64 .f32) (main_arg4 : FVec F S64 .f32) (main_arg5 : FVec F S4096x8192 .f32) (main_arg6 : FVec F S8192 .f32) (main_arg7 : FVec F S8192x64 .f32) (main_arg8 : FVec F S64 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_arg6 main_arg7 main_arg8 main_v13 main_v16
-- ==== Kernel.lean ====
abbrev S1x4096 : Shape := ⟨2, ![1, 4096]⟩
abbrev S4096x8192 : Shape := ⟨2, ![4096, 8192]⟩
abbrev S8192 : Shape := ⟨1, ![8192]⟩
abbrev S8192x64 : Shape := ⟨2, ![8192, 64]⟩
abbrev S64 : Shape := ⟨1, ![64]⟩
abbrev S1x8192 : Shape := ⟨2, ![1, 8192]⟩
abbrev S1x64 : Shape := ⟨2, ![1, 64]⟩
abbrev S2x1x64 : Shape := ⟨3, ![2, 1, 64]⟩
abbrev S4096x256 : Shape := ⟨2, ![4096, 256]⟩
abbrev S1x256 : Shape := ⟨2, ![1, 256]⟩
abbrev S256x64 : Shape := ⟨2, ![256, 64]⟩
abbrev S1x1x64 : Shape := ⟨3, ![1, 1, 64]⟩
abbrev S_ : Shape := ⟨0, ![]⟩

abbrev nBuf : Space → Nat
  | .hbm => 43
  | .vmem => 18
  | .smem => 0
  | _ => 0

abbrev bufTy : (tb : Table) → Fin (tcTables nBuf tb) → BufTy
  | .hbm, ⟨0, _⟩ => ⟨S1x4096, .f32⟩
  | .hbm, ⟨1, _⟩ => ⟨S4096x8192, .f32⟩
  | .hbm, ⟨2, _⟩ => ⟨S8192, .f32⟩
  | .hbm, ⟨3, _⟩ => ⟨S8192x64, .f32⟩
  | .hbm, ⟨4, _⟩ => ⟨S64, .f32⟩
  | .hbm, ⟨5, _⟩ => ⟨S4096x8192, .f32⟩
  | .hbm, ⟨6, _⟩ => ⟨S8192, .f32⟩
  | .hbm, ⟨7, _⟩ => ⟨S8192x64, .f32⟩
  | .hbm, ⟨8, _⟩ => ⟨S64, .f32⟩
  | .hbm, ⟨9, _⟩ => ⟨S1x8192, .f32⟩
  | .hbm, ⟨10, _⟩ => ⟨S1x8192, .f32⟩
  | .hbm, ⟨11, _⟩ => ⟨S1x64, .f32⟩
  | .hbm, ⟨12, _⟩ => ⟨S1x64, .f32⟩
  | .hbm, ⟨13, _⟩ => ⟨S2x1x64, .f32⟩
  | .hbm, ⟨14, _⟩ => ⟨S1x1x64, .f32⟩
  | .hbm, ⟨15, _⟩ => ⟨S1x64, .f32⟩
  | .hbm, ⟨16, _⟩ => ⟨S1x1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .i1⟩
  | .hbm, ⟨21, _⟩ => ⟨S_, .f32⟩
  | .hbm, ⟨22, _⟩ => ⟨S1x64, .f32⟩
  | .hbm, ⟨23, _⟩ => ⟨S1x64, .i1⟩
  | .hbm, ⟨24, _⟩ => ⟨S_, .f32⟩
  | .hbm, ⟨25, _⟩ => ⟨S1x64, .f32⟩
  | .hbm, ⟨26, _⟩ => ⟨S1x64, .i1⟩
  | .hbm, ⟨27, _⟩ => ⟨S_, .f32⟩
  | .hbm, ⟨28, _⟩ => ⟨S1x64, .f32⟩
  | .hbm, ⟨29, _⟩ => ⟨S1x64, .i1⟩
  | .hbm, ⟨30, _⟩ => ⟨S1x64, .i1⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S1x64, .i1⟩
  | .hbm, ⟨36, _⟩ => ⟨S1x64, .i1⟩
  | .hbm, ⟨37, _⟩ => ⟨S_, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .local _ .vmem, ⟨0, _⟩ => ⟨S1x4096, .f32⟩
  | .local _ .vmem, ⟨1, _⟩ => ⟨S4096x256, .f32⟩
  | .local _ .vmem, ⟨2, _⟩ => ⟨S4096x256, .f32⟩
  | .local _ .vmem, ⟨3, _⟩ => ⟨S1x256, .f32⟩
  | .local _ .vmem, ⟨4, _⟩ => ⟨S1x256, .f32⟩
  | .local _ .vmem, ⟨5, _⟩ => ⟨S256x64, .f32⟩
  | .local _ .vmem, ⟨6, _⟩ => ⟨S256x64, .f32⟩
  | .local _ .vmem, ⟨7, _⟩ => ⟨S1x64, .f32⟩
  | .local _ .vmem, ⟨8, _⟩ => ⟨S4096x256, .f32⟩
  | .local _ .vmem, ⟨9, _⟩ => ⟨S4096x256, .f32⟩
  | .local _ .vmem, ⟨10, _⟩ => ⟨S1x256, .f32⟩
  | .local _ .vmem, ⟨11, _⟩ => ⟨S1x256, .f32⟩
  | .local _ .vmem, ⟨12, _⟩ => ⟨S256x64, .f32⟩
  | .local _ .vmem, ⟨13, _⟩ => ⟨S256x64, .f32⟩
  | .local _ .vmem, ⟨14, _⟩ => ⟨S1x64, .f32⟩
  | .local _ .vmem, ⟨15, _⟩ => ⟨S1x1x64, .f32⟩
  | .local _ .vmem, ⟨16, _⟩ => ⟨S1x1x64, .f32⟩
  | .local _ .vmem, ⟨17, _⟩ => ⟨S1x64, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v36 : BitVec 1 := Scalar.cmpi .eq arg1 c31_i32
  let v37 : BitVec 32 := Scalar.extui v36
  let c0_i32_24 : BitVec 32 := 0#32
  let v38 : BitVec 1 := Scalar.cmpi .ne v37 c0_i32_24
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S8192_S1x8192 : S8192.ShapeCasts S1x8192
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x4096_S1x4096_0_0 : ∀ a, (![0, 0] : Fin 2 → Nat) a + S1x4096.size a ≤ S1x4096.size a
  h_S1x4096 : 0 < S1x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x64_S256x64_0_0 : ∀ a, (![0, 0] : Fin 2 → Nat) a + S256x64.size a ≤ S256x64.size a
  h_S256x64 : 0 < S256x64.numel
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  slices_S2x1x64_S1x1x64_0_0_0 : S2x1x64.Slices ![0, 0, 0] S1x1x64
  shapeCasts_S1x1x64_S1x64 : S1x1x64.ShapeCasts S1x64
  slices_S2x1x64_S1x1x64_1_0_0 : S2x1x64.Slices ![1, 0, 0] S1x1x64
  bcast_S_S1x64 : S_.BroadcastsInDim S1x64 (![] : Fin 0 → Fin S1x64.rank)
  dot_S1x4096_S4096x256_S1x256_1_0_0_1_n_n_wf : DotDims.WF S1x4096 S4096x256 S1x256 [1] [0] [0] [1] [] []
  dot_S1x256_S256x64_S1x64_1_0_0_1_n_n_wf : DotDims.WF S1x256 S256x64 S1x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x8192.size a
  hwx0_1 : ∀ i : grid0.Coords, EltTy.bits .f32 = 32 ∨ (Rect.block (s := S4096x8192) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S8192x64.size a
  hwx0_3 : ∀ i : grid0.Coords, EltTy.bits .f32 = 32 ∨ (Rect.block (s := S8192x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x8192.size a
  hwx0_5 : ∀ i : grid0.Coords, EltTy.bits .f32 = 32 ∨ (Rect.block (s := S4096x8192) S4096x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x8192.size a
  hwx0_6 : ∀ i : grid0.Coords, EltTy.bits .f32 = 32 ∨ (Rect.block (s := S1x8192) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S8192x64.size a
  hwx0_7 : ∀ i : grid0.Coords, EltTy.bits .f32 = 32 ∨ (Rect.block (s := S8192x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x64.size a ≤ S2x1x64.size a
  hwx0_9 : ∀ i : grid0.Coords, EltTy.bits .f32 = 32 ∨ (Rect.block (s := S2x1x64) S1x1x64.size (cc0_transform_9 i) (hinb0_9 i)).WholeWords (EltTy.packing .f32)

variable [Facts₀]

def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf
def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1x4096 : Shape := ⟨2, ![1, 4096]⟩
abbrev S4096x8192 : Shape := ⟨2, ![4096, 8192]⟩
abbrev S8192 : Shape := ⟨1, ![8192]⟩
abbrev S8192x64 : Shape := ⟨2, ![8192, 64]⟩
abbrev S64 : Shape := ⟨1, ![64]⟩
abbrev S1x8192 : Shape := ⟨2, ![1, 8192]⟩
abbrev S_ : Shape := ⟨0, ![]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x8192, .f32⟩
  | .hbm, ⟨2, _⟩ => ⟨S8192, .f32⟩
  | .hbm, ⟨3, _⟩ => ⟨S8192x64, .f32⟩
  | .hbm, ⟨4, _⟩ => ⟨S64, .f32⟩
  | .hbm, ⟨5, _⟩ => ⟨S4096x8192, .f32⟩
  | .hbm, ⟨6, _⟩ => ⟨S8192, .f32⟩
  | .hbm, ⟨7, _⟩ => ⟨S8192x64, .f32⟩
  | .hbm, ⟨8, _⟩ => ⟨S64, .f32⟩
  | .hbm, ⟨9, _⟩ => ⟨S1x8192, .f32⟩
  | .hbm, ⟨10, _⟩ => ⟨S1x8192, .f32⟩
  | .hbm, ⟨11, _⟩ => ⟨S1x8192, .f32⟩
  | .hbm, ⟨12, _⟩ => ⟨S_, .f32⟩
  | .hbm, ⟨13, _⟩ => ⟨S1x8192, .f32⟩
  | .hbm, ⟨14, _⟩ => ⟨S1x8192, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S1x8192, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S1x8192, .f32⟩
  | .hbm, ⟨26, _⟩ => ⟨S1x8192, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .i1⟩
  | .hbm, ⟨36, _⟩ => ⟨S_, .f32⟩
  | .hbm, ⟨37, _⟩ => ⟨S1x64, .f32⟩
  | .hbm, ⟨38, _⟩ => ⟨S1x64, .i1⟩
  | .hbm, ⟨39, _⟩ => ⟨S_, .f32⟩
  | .hbm, ⟨40, _⟩ => ⟨S1x64, .f32⟩
  | .hbm, ⟨41, _⟩ => ⟨S1x64, .i1⟩
  | .hbm, ⟨42, _⟩ => ⟨S_, .f32⟩
  | .hbm, ⟨43, _⟩ => ⟨S1x64, .f32⟩
  | .hbm, ⟨44, _⟩ => ⟨S1x64, .i1⟩
  | .hbm, ⟨45, _⟩ => ⟨S1x64, .i1⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S1x64, .i1⟩
  | .hbm, ⟨51, _⟩ => ⟨S1x64, .i1⟩
  | .hbm, ⟨52, _⟩ => ⟨S_, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_cst : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call3_cst : Ref sig .tc := ⟨.hbm, 30, rfl⟩
abbrev main_call3_v0 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_call4_v0 : Ref sig .tc := ⟨.hbm, 53, rfl⟩
abbrev main_call4_v1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S64_S1x64_1 : S64.BroadcastsInDim S1x64 (![1] : Fin 1 → Fin S1x64.rank)
  bcast_S_S1x64 : S_.BroadcastsInDim S1x64 (![] : Fin 0 → Fin S1x64.rank)
  dot_S1x4096_S4096x8192_S1x8192_1_0_0_1_n_n_wf : DotDims.WF S1x4096 S4096x8192 S1x8192 [1] [0] [0] [1] [] []
  dot_S1x8192_S8192x64_S1x64_1_0_0_1_n_n_wf : DotDims.WF S1x8192 S8192x64 S1x64 [1] [0] [0] [1] [] []

variable [Facts₀]

def dot_S1x4096_S4096x8192_S1x8192_1_0_0_1_n_n : DotDims S1x4096 S4096x8192 S1x8192 where
  lhsContracting := [1]
  rhsContracting := [0]
  lhsNonContracting := [0]
  rhsNonContracting := [1]
  lhsBatch := []
  rhsBatch := []
  wf := dot_S1x4096_S4096x8192_S1x8192_1_0_0_1_n_n_wf
def dot_S1x8192_S8192x64_S1x64_1_0_0_1_n_n : DotDims S1x8192 S8192x64 S1x64 where
  lhsContracting := [1]
  rhsContracting := [0]
  lhsNonContracting := [0]
  rhsNonContracting := [1]
  lhsBatch := []
  rhsBatch := []
  wf := dot_S1x8192_S8192x64_S1x64_1_0_0_1_n_n_wf

class Facts : Prop extends Facts₀ where

variable [Facts]
-- ==== Proof.Spec.lean ====
/-
  Two two-layer perceptrons sharing one input row, as plain sums over the extended reals.

  For an input row x of length 4096, weights W1 [4096, 8192] and W2 [8192, 64] and biases b1, b2, one perceptron is
      hidden h = max (Σ_a x a · W1 (a, h) + b1 h) 0            (h < 8192)
      out o    = max (Σ_h hidden h · W2 (h, o) + b2 o) 0        (o < 64).
  The hidden sum over 8192 positions may be taken 256 positions at a time: position 256·j + r is chunk j, place r
  (hpos), and the sum over all positions is the sum over the 32 chunks of the sums over their 256 places
  (sum_chunks: a re-indexing of a finite sum in a commutative monoid, so it holds with infinite terms too).
  A running sum that starts from 0 and adds chunk after chunk (accN) is, after the last chunk, the sum over all
  chunks (accN_last): only 0 + a = a and the associativity of + are used.
  The two perceptrons' outputs a and b are then combined entry by entry (comb): their mean when both are positive,
  the positive one when the other is 0, and 0 otherwise.
-/
import Idealize.ShloMosaic.Lib.ValueIdx
import Mathlib.Algebra.BigOperators.Fin
import Mathlib.Logic.Equiv.Fin.Basic

noncomputable section

open scoped BigOperators

namespace Cert.TwoMlp

open Idealize.ShloMosaic Idealize.ShloMosaic.ValueIdx

/-- Position r of chunk j among the 8192 hidden positions: 256·j + r. -/
def hpos (j : Fin 32) (r : Fin 256) : Fin 8192 := ⟨r.val + 256 * j.val, by have := j.isLt; have := r.isLt; omega⟩

theorem hpos_val (j : Fin 32) (r : Fin 256) : (hpos j r).val = r.val + 256 * j.val := rfl

/-- A sum over the 8192 hidden positions is the sum over the 32 chunks of the sums over each chunk's 256 places. -/
theorem sum_chunks {M : Type*} [AddCommMonoid M] (f : Fin 8192 → M) :
    ∑ h : Fin 8192, f h = ∑ j : Fin 32, ∑ r : Fin 256, f (hpos j r) := by
  have e : ∑ p : Fin 32 × Fin 256, f (finProdFinEquiv p) = ∑ h : Fin 8192, f h :=
    Equiv.sum_comp (finProdFinEquiv (m := 32) (n := 256)) f
  rw [← e, Fintype.sum_prod_type]
  rfl

/-- The hidden activation at position h: the first layer's row product plus its bias, clamped below at 0. -/
def hidden (x : (⟨2, ![1, 4096]⟩ : Shape).Idx → EReal) (W1 : (⟨2, ![4096, 8192]⟩ : Shape).Idx → EReal)
    (b1 : (⟨1, ![8192]⟩ : Shape).Idx → EReal) (h : Fin 8192) : EReal :=
  max ((∑ a : Fin 4096, x (ix2 0 a) * W1 (ix2 a h)) + b1 (ix1 h)) 0

/-- What chunk j of the hidden positions adds to output o: its 256 activations against their rows of W2. -/
def chunk (x : (⟨2, ![1, 4096]⟩ : Shape).Idx → EReal) (W1 : (⟨2, ![4096, 8192]⟩ : Shape).Idx → EReal)
    (b1 : (⟨1, ![8192]⟩ : Shape).Idx → EReal) (W2 : (⟨2, ![8192, 64]⟩ : Shape).Idx → EReal) (o : Fin 64) (j : Fin 32) : EReal :=
  ∑ r : Fin 256, hidden x W1 b1 (hpos j r) * W2 (ix2 (hpos j r) o)

/-- The perceptron's output o: the second layer's row product plus its bias, clamped below at 0. -/
def out (x : (⟨2, ![1, 4096]⟩ : Shape).Idx → EReal) (W1 : (⟨2, ![4096, 8192]⟩ : Shape).Idx → EReal)
    (b1 : (⟨1, ![8192]⟩ : Shape).Idx → EReal) (W2 : (⟨2, ![8192, 64]⟩ : Shape).Idx → EReal)
    (b2 : (⟨1, ![64]⟩ : Shape).Idx → EReal) (o : Fin 64) : EReal :=
  max ((∑ h : Fin 8192, hidden x W1 b1 h * W2 (ix2 h o)) + b2 (ix1 o)) 0

/-- A function of the 32 chunks, extended by 0 to every natural number. -/
def chunkN (f : Fin 32 → EReal) (j : ℕ) : EReal := if h : j < 32 then f ⟨j, h⟩ else 0

theorem chunkN_of_lt (f : Fin 32 → EReal) (j : ℕ) (h : j < 32) : chunkN f j = f ⟨j, h⟩ := dif_pos h

/-- The running sum over positions 0 … n, started from 0: 0 + g 0, then + g 1, …, + g n. -/
def accN (g : ℕ → EReal) : ℕ → EReal
  | 0 => 0 + g 0
  | n + 1 => accN g n + g (n + 1)

theorem accN_zero (g : ℕ → EReal) : accN g 0 = 0 + g 0 := rfl
theorem accN_succ (g : ℕ → EReal) (n : ℕ) : accN g (n + 1) = accN g n + g (n + 1) := rfl

/-- The running sum after position n is the sum of the terms up to n. -/
theorem accN_eq (g : ℕ → EReal) : ∀ n : ℕ, accN g n = ∑ j ∈ Finset.range (n + 1), g j
  | 0 => by rw [accN_zero, zero_add, Finset.sum_range_one]
  | n + 1 => by rw [accN_succ, accN_eq g n, Finset.sum_range_succ _ (n + 1)]

/-- After the last chunk the running sum is the sum over all 32 chunks. -/
theorem accN_last (f : Fin 32 → EReal) : accN (chunkN f) 31 = ∑ j : Fin 32, f j := by
  rw [accN_eq, ← Fin.sum_univ_eq_sum_range (chunkN f) 32]
  exact Finset.sum_congr rfl fun j _ => chunkN_of_lt f j.val j.isLt

/-- So the chunked running sum of one perceptron's second layer, after the last chunk, is the whole hidden sum. -/
theorem acc_chunks_eq (x : (⟨2, ![1, 4096]⟩ : Shape).Idx → EReal) (W1 : (⟨2, ![4096, 8192]⟩ : Shape).Idx → EReal)
    (b1 : (⟨1, ![8192]⟩ : Shape).Idx → EReal) (W2 : (⟨2, ![8192, 64]⟩ : Shape).Idx → EReal) (o : Fin 64) :
    accN (chunkN (chunk x W1 b1 W2 o)) 31 = ∑ p : Fin 8192, hidden x W1 b1 p * W2 (ix2 p o) := by
  rw [accN_last, sum_chunks (fun p => hidden x W1 b1 p * W2 (ix2 p o))]
  rfl

/-- The entrywise combination of the two outputs: (a + b) · ½ when both are positive, a when a > 0 = b, b when
    a = 0 < b, else 0 — as three nested selections on the comparisons with 0, at any float instance. -/
def comb {F : FTy → Type} [FloatOps F] (a b : F .f32) : F .f32 :=
  Scalar.select
    (IntOp.andi (FloatOps.cmpf .ogt a (FloatOps.ofBits .f32 0x00000000#32)) (FloatOps.cmpf .ogt b (FloatOps.ofBits .f32 0x00000000#32)))
    (FloatOps.mulf (FloatOps.addf a b) (FloatOps.ofBits .f32 0x3F000000#32))
    (Scalar.select
      (IntOp.andi (FloatOps.cmpf .ogt a (FloatOps.ofBits .f32 0x00000000#32)) (FloatOps.cmpf .oeq b (FloatOps.ofBits .f32 0x00000000#32)))
      a
      (Scalar.select
        (IntOp.andi (FloatOps.cmpf .oeq a (FloatOps.ofBits .f32 0x00000000#32)) (FloatOps.cmpf .ogt b (FloatOps.ofBits .f32 0x00000000#32)))
        b
        (FloatOps.ofBits .f32 0x00000000#32)))

end Cert.TwoMlp

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Pay.lean ====
/-
  The body's arithmetic, named and read at an entry.

  At one grid point the body takes the input row x, a 256-column block w1 of a first-layer weight with the matching
  block b1 of its bias, and the matching 256-row block w2 of the second-layer weight, and forms
      part x w1 b1 w2 = (max (x · w1 + b1) 0) · w2,
  a row of 64 numbers: what these 256 hidden positions add to each output. It does so for both perceptrons and keeps
  the one the first grid coordinate names. The scratch row is then  acc + part, started from the zero row at the first
  chunk, and at the last chunk the output block is  max (acc + b2) 0.
  At the ideal instance the products into a zero accumulator are plain sums and a change of float format is the
  identity, so entry o of part is  Σ_r max (Σ_a x a · w1 (a, r) + b1 r) 0 · w2 (r, o).
-/
import proofs.«116464_j46866683134472_1_alg».proof.Proof.Gen.KernelIdeal.Skeleton
import proofs.«116464_j46866683134472_1_alg».proof.Proof.Spec
import proofs.«116464_j46866683134472_1_alg».proof.Proof.LibDot2
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.TwoMlp.Kernel

open Cert.KernelIdeal Cert.KernelIdeal.Gen

/-! ## Which coordinate of each operand a product's output and contraction indices name -/

theorem lhs1_0 (i : S1x256.Idx) (q : dot_S1x4096_S4096x256_S1x256_1_0_0_1_n_n.contr.Idx) : (dot_S1x4096_S4096x256_S1x256_1_0_0_1_n_n.lhsIdx i q 0).val = (i 0).val := by
  unfold DotDims.lhsIdx
  rw [dif_neg (show ¬(0 : Fin S1x4096.rank) ∈ dot_S1x4096_S4096x256_S1x256_1_0_0_1_n_n.lhsBatch by decide), dif_pos (show (0 : Fin S1x4096.rank) ∈ dot_S1x4096_S4096x256_S1x256_1_0_0_1_n_n.lhsNonContracting by decide)]
  rfl
theorem lhs1_1 (i : S1x256.Idx) (q : dot_S1x4096_S4096x256_S1x256_1_0_0_1_n_n.contr.Idx) : (dot_S1x4096_S4096x256_S1x256_1_0_0_1_n_n.lhsIdx i q 1).val = (q ⟨0, by decide⟩).val :=
  dot_S1x4096_S4096x256_S1x256_1_0_0_1_n_n.lhsIdx_val_of_single rfl i q
theorem rhs1_0 (i : S1x256.Idx) (q : dot_S1x4096_S4096x256_S1x256_1_0_0_1_n_n.contr.Idx) : (dot_S1x4096_S4096x256_S1x256_1_0_0_1_n_n.rhsIdx i q 0).val = (q ⟨0, by decide⟩).val :=
  dot_S1x4096_S4096x256_S1x256_1_0_0_1_n_n.rhsIdx_val_of_single rfl i q
theorem rhs1_1 (i : S1x256.Idx) (q : dot_S1x4096_S4096x256_S1x256_1_0_0_1_n_n.contr.Idx) : (dot_S1x4096_S4096x256_S1x256_1_0_0_1_n_n.rhsIdx i q 1).val = (i 1).val := by
  unfold DotDims.rhsIdx
  rw [dif_neg (show ¬(1 : Fin S4096x256.rank) ∈ dot_S1x4096_S4096x256_S1x256_1_0_0_1_n_n.rhsBatch by decide), dif_pos (show (1 : Fin S4096x256.rank) ∈ dot_S1x4096_S4096x256_S1x256_1_0_0_1_n_n.rhsNonContracting by decide)]
  rfl

theorem lhs2_0 (i : S1x64.Idx) (q : dot_S1x256_S256x64_S1x64_1_0_0_1_n_n.contr.Idx) : (dot_S1x256_S256x64_S1x64_1_0_0_1_n_n.lhsIdx i q 0).val = (i 0).val := by
  unfold DotDims.lhsIdx
  rw [dif_neg (show ¬(0 : Fin S1x256.rank) ∈ dot_S1x256_S256x64_S1x64_1_0_0_1_n_n.lhsBatch by decide), dif_pos (show (0 : Fin S1x256.rank) ∈ dot_S1x256_S256x64_S1x64_1_0_0_1_n_n.lhsNonContracting by decide)]
  rfl
theorem lhs2_1 (i : S1x64.Idx) (q : dot_S1x256_S256x64_S1x64_1_0_0_1_n_n.contr.Idx) : (dot_S1x256_S256x64_S1x64_1_0_0_1_n_n.lhsIdx i q 1).val = (q ⟨0, by decide⟩).val :=
  dot_S1x256_S256x64_S1x64_1_0_0_1_n_n.lhsIdx_val_of_single rfl i q
theorem rhs2_0 (i : S1x64.Idx) (q : dot_S1x256_S256x64_S1x64_1_0_0_1_n_n.contr.Idx) : (dot_S1x256_S256x64_S1x64_1_0_0_1_n_n.rhsIdx i q 0).val = (q ⟨0, by decide⟩).val :=
  dot_S1x256_S256x64_S1x64_1_0_0_1_n_n.rhsIdx_val_of_single rfl i q
theorem rhs2_1 (i : S1x64.Idx) (q : dot_S1x256_S256x64_S1x64_1_0_0_1_n_n.contr.Idx) : (dot_S1x256_S256x64_S1x64_1_0_0_1_n_n.rhsIdx i q 1).val = (i 1).val := by
  unfold DotDims.rhsIdx
  rw [dif_neg (show ¬(1 : Fin S256x64.rank) ∈ dot_S1x256_S256x64_S1x64_1_0_0_1_n_n.rhsBatch by decide), dif_pos (show (1 : Fin S256x64.rank) ∈ dot_S1x256_S256x64_S1x64_1_0_0_1_n_n.rhsNonContracting by decide)]
  rfl

/-! ## The named stages -/

section AnyInstance
variable {F : FTy → Type} [FloatOps F]

/-- One block of 256 hidden positions through both layers: (max (x · w1 + b1) 0) · w2. -/
def part (x : Vec F S1x4096 .f32) (w1 : Vec F S4096x256 .f32) (b1 : Vec F S1x256 .f32) (w2 : Vec F S256x64 .f32) : FVec F S1x64 .f32 :=
  matmul dot_S1x256_S256x64_S1x64_1_0_0_1_n_n none
    (truncf .bf16 (maximumf (addf (matmul dot_S1x4096_S4096x256_S1x256_1_0_0_1_n_n none (truncf .bf16 x Gen.bitsLt_bf16_f32) (truncf .bf16 w1 Gen.bitsLt_bf16_f32) (constant S1x256 .f32 0x00000000#32))
        (shapeCast S1x256 b1 Gen.shapeCasts_S1x256_S1x256)) (broadcast S1x256 (Scalar.ofBits .f32 0x00000000#32))) Gen.bitsLt_bf16_f32)
    (truncf .bf16 w2 Gen.bitsLt_bf16_f32) (constant S1x64 .f32 0x00000000#32)

/-- The row the body adds to the scratch: the first perceptron's part where the first grid coordinate is 0, else the second's. -/
theorem pay4_eq (i : grid0.Coords) (x : Vec F S1x4096 .f32) (w1a : Vec F S4096x256 .f32) (b1a : Vec F S1x256 .f32) (w2a : Vec F S256x64 .f32)
    (w1b : Vec F S4096x256 .f32) (b1b : Vec F S1x256 .f32) (w2b : Vec F S256x64 .f32) :
    k0_pay4 i x w1a b1a w2a w1b b1b w2b
      = Scalar.select (IntOp.cmpi .eq (BitVec.ofNat 32 (i 0).val) 0#32) (part x w1a b1a w2a) (part x w1b b1b w2b) := rfl

/-- The scratch after the update: what it held plus the row. -/
theorem pay1_eq (row : FVec F S1x64 .f32) (acc : Vec F S1x64 .f32) : k0_pay1 row acc = addf acc row := by
  show shapeCast S1x64 (addf acc row) _ = _
  exact shapeCast_self _ _

/-- The row the first chunk resets the scratch to: all zero words. -/
theorem pay3_eq : k0_pay3 (F := F) = broadcast S1x64 (Scalar.ofBits .f32 0x00000000#32) := by
  show shapeCast S1x64 (broadcast S1x64 (Scalar.ofBits .f32 0x00000000#32)) _ = _
  exact shapeCast_self _ _

/-- The output block the last chunk stores: max (acc + bias) 0 as a [1,1,64] block, the bias the first perceptron's
    where the first grid coordinate is 0. -/
theorem pay2_eq (v0 : BitVec 1) (ba bb acc : Vec F S1x64 .f32) :
    k0_pay2 v0 ba bb acc
      = shapeCast S1x1x64 (maximumf (addf acc (Scalar.select v0 ba bb)) (broadcast S1x64 (Scalar.ofBits .f32 0x00000000#32))) Gen.shapeCasts_S1x64_S1x1x64 := by
  show shapeCast S1x1x64 (maximumf (addf acc (Scalar.select v0 (shapeCast S1x64 ba _) (shapeCast S1x64 bb _))) _) _ = _
  rw [shapeCast_self, shapeCast_self]

end AnyInstance

/-! ## At the ideal instance, at an entry -/

/-- Entry o of one block's part: Σ_r max (Σ_a x a · w1 (a, r) + b1 r) 0 · w2 (r, o). -/
theorem part_apply (x : Vec Ideal S1x4096 .f32) (w1 : Vec Ideal S4096x256 .f32) (b1 : Vec Ideal S1x256 .f32) (w2 : Vec Ideal S256x64 .f32) (o : Fin 64) :
    part (F := Ideal) x w1 b1 w2 (ix2 0 o)
      = ∑ r : Fin 256, max ((∑ a : Fin 4096, x (ix2 0 a) * w1 (ix2 a r)) + b1 (ix2 0 r)) 0 * w2 (ix2 r o) := by
  unfold part
  rw [Cert.Lib.Dot2.matmul_zero_ix2 dot_S1x256_S256x64_S1x64_1_0_0_1_n_n none rfl rfl lhs2_0 lhs2_1 rhs2_0 rhs2_1]
  refine Finset.sum_congr rfl fun r _ => ?_
  show max (matmul dot_S1x4096_S4096x256_S1x256_1_0_0_1_n_n none (truncf .bf16 x _) (truncf .bf16 w1 _) (constant (F := Ideal) S1x256 .f32 0x00000000#32) (ix2 0 r)
      + shapeCast S1x256 b1 _ (ix2 0 r)) (Ideal.ofBits .f32 0x00000000#32) * w2 (ix2 r o) = _
  rw [Cert.Lib.Dot2.matmul_zero_ix2 dot_S1x4096_S4096x256_S1x256_1_0_0_1_n_n none rfl rfl lhs1_0 lhs1_1 rhs1_0 rhs1_1, shapeCast_self, Ideal.ofBits_zero_f32]
  rfl

/-- The row added to the scratch, at entry o: a choice between the two perceptrons' parts on the first grid coordinate. -/
theorem pay4_apply (i : grid0.Coords) (x : Vec Ideal S1x4096 .f32) (w1a : Vec Ideal S4096x256 .f32) (b1a : Vec Ideal S1x256 .f32) (w2a : Vec Ideal S256x64 .f32)
    (w1b : Vec Ideal S4096x256 .f32) (b1b : Vec Ideal S1x256 .f32) (w2b : Vec Ideal S256x64 .f32) (o : Fin 64) :
    k0_pay4 (F := Ideal) i x w1a b1a w2a w1b b1b w2b (ix2 0 o)
      = if (i 0).val = 0 then part (F := Ideal) x w1a b1a w2a (ix2 0 o) else part (F := Ideal) x w1b b1b w2b (ix2 0 o) := by
  rw [pay4_eq, select_eq0 (i 0).val (i 0).isLt]
  split <;> rfl

end Cert.TwoMlp.Kernel

end
-- ==== Proof.Pieces.lean ====
/-
  What each case of the body leaves behind, as values.

  The body runs in three cases. At the first chunk of a perceptron it resets the scratch row to zero and then adds
  the chunk's row, so the scratch ends at  0 + row. At a middle chunk the scratch ends at  acc + row, acc being what
  the point before left. At the last chunk the scratch again ends at  acc + row, and the output block is
  max ((acc + row) + bias) 0, read from the scratch just written. Here row is the body's choice between the two
  perceptrons' parts of this chunk (its payload over the seven input blocks).
-/
import proofs.«116464_j46866683134472_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.TwoMlp.Kernel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle chunk leaves the scratch at what it held plus this chunk's row. -/
theorem sout_B (c : Dev nD) (i : grid0.Coords) (arg2 : Memref sig .tc .vmem S1x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S4096x256 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : ¬cond0_1 i)
    (x0 : Vec F S1x4096 .f32) (x1 : Vec F S4096x256 .f32) (x2 : Vec F S1x256 .f32) (x3 : Vec F S256x64 .f32) (x4 : Vec F S1x64 .f32) (x5 : Vec F S4096x256 .f32) (x6 : Vec F S1x256 .f32) (x7 : Vec F S256x64 .f32) (x8 : Vec F S1x64 .f32) (xs0 : Vec F S1x64 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay1 (k0_pay4 i x0 x1 x2 x3 x5 x6 x7) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x4096) hz2, View.ld_unit_zero (S := S4096x256) hz2, View.ld_unit_zero (S := S1x256) hz2, View.ld_unit_zero (S := S256x64) hz2, View.ld_unit_zero (S := S1x64) hz2]

/-- The last chunk leaves the scratch at what it held plus this chunk's row, -/
theorem sout_C (c : Dev nD) (i : grid0.Coords) (arg2 : Memref sig .tc .vmem S1x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S4096x256 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : cond0_1 i)
    (x0 : Vec F S1x4096 .f32) (x1 : Vec F S4096x256 .f32) (x2 : Vec F S1x256 .f32) (x3 : Vec F S256x64 .f32) (x4 : Vec F S1x64 .f32) (x5 : Vec F S4096x256 .f32) (x6 : Vec F S1x256 .f32) (x7 : Vec F S256x64 .f32) (x8 : Vec F S1x64 .f32) (xs0 : Vec F S1x64 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay1 (k0_pay4 i x0 x1 x2 x3 x5 x6 x7) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x4096) hz2, View.ld_unit_zero (S := S4096x256) hz2, View.ld_unit_zero (S := S1x256) hz2, View.ld_unit_zero (S := S256x64) hz2, View.ld_unit_zero (S := S1x64) hz2]

/-- and stores the output block computed from the scratch it has just written and the two second-layer biases. -/
theorem out_C (c : Dev nD) (i : grid0.Coords) (arg2 : Memref sig .tc .vmem S1x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S4096x256 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : ¬cond0_0 i) (hc1 : cond0_1 i)
    (x0 : Vec F S1x4096 .f32) (x1 : Vec F S4096x256 .f32) (x2 : Vec F S1x256 .f32) (x3 : Vec F S256x64 .f32) (x4 : Vec F S1x64 .f32) (x5 : Vec F S4096x256 .f32) (x6 : Vec F S1x256 .f32) (x7 : Vec F S256x64 .f32) (x8 : Vec F S1x64 .f32) (xs0 : Vec F S1x64 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0
      = k0_pay2 (IntOp.cmpi .eq (BitVec.ofNat 32 (i 0).val) 0#32) x4 x8 (k0_pay1 (k0_pay4 i x0 x1 x2 x3 x5 x6 x7) xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x4096) hz2, View.ld_unit_zero (S := S4096x256) hz2, View.ld_unit_zero (S := S1x256) hz2, View.ld_unit_zero (S := S256x64) hz2, View.ld_unit_zero (S := S1x64) hz2, View.readCov_unit_zero (S := S1x64) _ hz2]
  rfl

/-- The first chunk resets the scratch to the zero row and leaves it at that row plus this chunk's row. -/
theorem sout_A (c : Dev nD) (i : grid0.Coords) (arg2 : Memref sig .tc .vmem S1x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S4096x256 .f32) (harg7 : arg7.IsWhole) (arg8 : Memref sig .tc .vmem S1x256 .f32) (harg8 : arg8.IsWhole) (arg9 : Memref sig .tc .vmem S256x64 .f32) (harg9 : arg9.IsWhole) (arg10 : Memref sig .tc .vmem S1x64 .f32) (harg10 : arg10.IsWhole) (arg11 : Memref sig .tc .vmem S1x1x64 .f32) (harg11 : arg11.IsWhole) (arg12 : Memref sig .tc .vmem S1x64 .f32) (harg12 : arg12.IsWhole) (hc0 : cond0_0 i) (hc1 : ¬cond0_1 i)
    (x0 : Vec F S1x4096 .f32) (x1 : Vec F S4096x256 .f32) (x2 : Vec F S1x256 .f32) (x3 : Vec F S256x64 .f32) (x4 : Vec F S1x64 .f32) (x5 : Vec F S4096x256 .f32) (x6 : Vec F S1x256 .f32) (x7 : Vec F S256x64 .f32) (x8 : Vec F S1x64 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay1 (k0_pay4 i x0 x1 x2 x3 x5 x6 x7) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S1x64) hz2, View.readCov_unit_zero (S := S1x64) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x4096) hz2, View.ld_unit_zero (S := S4096x256) hz2, View.ld_unit_zero (S := S1x256) hz2, View.ld_unit_zero (S := S256x64) hz2, View.ld_unit_zero (S := S1x64) hz2]

end Cert.TwoMlp.Kernel

end
-- ==== Proof.Blocks.lean ====
/-
  The input blocks, read at an entry.

  The grid has 2 · 32 points; point t works on perceptron t / 32 and on chunk t % 32 of its 8192 hidden positions.
  At a point of the first perceptron the blocks of W1a, b1a and W2a are chunk t % 32 of those arrays: column (resp.
  row) r of the block is hidden position 256 · (t % 32) + r of the array. At a point of the second perceptron the
  same holds of W1b, b1b and W2b. The input row and the two second-layer biases are whole at every point. The four
  bias arrays reach the call reshaped from length n to [1, n] by the host, which moves no entry.
-/
import proofs.«116464_j46866683134472_1_alg».proof.Proof.Gen.KernelIdeal.Frame
import proofs.«116464_j46866683134472_1_alg».proof.Proof.Spec
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.TwoMlp.Kernel

open Cert.KernelIdeal Cert.KernelIdeal.Gen Cert.TwoMlp

variable {F : FTy → Type} [FloatOps F]
variable (m : (ℓ : Loc nD τ sig) → Buf (Elt F) ℓ)

/-! ## The points and the index maps, decided over the grid -/

/-- Point t has first coordinate t / 32 (the perceptron) and second coordinate t % 32 (the chunk). -/
theorem coords_eq : ∀ t : Fin cfg0.N, ((grid0.coords t) 0).val = t.val / 32 ∧ ((grid0.coords t) 1).val = t.val % 32 :=
  (by decide +kernel : ∀ t : Fin grid0.N, ((grid0.coords t) 0).val = t.val / 32 ∧ ((grid0.coords t) 1).val = t.val % 32)

theorem idx0 : ∀ t : Fin cfg0.N, win0_0.index t 0 = 0 ∧ win0_0.index t 1 = 0 :=
  (by decide +kernel : ∀ t : Fin grid0.N, win0_0.index t 0 = 0 ∧ win0_0.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx1 : ∀ t : Fin cfg0.N, t.val / 32 = 0 → win0_1.index t 0 = 0 ∧ win0_1.index t 1 = t.val % 32 :=
  (by decide +kernel : ∀ t : Fin grid0.N, t.val / 32 = 0 → win0_1.index t 0 = 0 ∧ win0_1.index t 1 = t.val % 32)
theorem idx2 : ∀ t : Fin cfg0.N, t.val / 32 = 0 → win0_2.index t 0 = 0 ∧ win0_2.index t 1 = t.val % 32 :=
  (by decide +kernel : ∀ t : Fin grid0.N, t.val / 32 = 0 → win0_2.index t 0 = 0 ∧ win0_2.index t 1 = t.val % 32)
theorem idx3 : ∀ t : Fin cfg0.N, t.val / 32 = 0 → win0_3.index t 0 = t.val % 32 ∧ win0_3.index t 1 = 0 :=
  (by decide +kernel : ∀ t : Fin grid0.N, t.val / 32 = 0 → win0_3.index t 0 = t.val % 32 ∧ win0_3.index t 1 = 0)
theorem idx5 : ∀ t : Fin cfg0.N, t.val / 32 = 1 → win0_5.index t 0 = 0 ∧ win0_5.index t 1 = t.val % 32 :=
  (by decide +kernel : ∀ t : Fin grid0.N, t.val / 32 = 1 → win0_5.index t 0 = 0 ∧ win0_5.index t 1 = t.val % 32)
theorem idx6 : ∀ t : Fin cfg0.N, t.val / 32 = 1 → win0_6.index t 0 = 0 ∧ win0_6.index t 1 = t.val % 32 :=
  (by decide +kernel : ∀ t : Fin grid0.N, t.val / 32 = 1 → win0_6.index t 0 = 0 ∧ win0_6.index t 1 = t.val % 32)
theorem idx7 : ∀ t : Fin cfg0.N, t.val / 32 = 1 → win0_7.index t 0 = t.val % 32 ∧ win0_7.index t 1 = 0 :=
  (by decide +kernel : ∀ t : Fin grid0.N, t.val / 32 = 1 → win0_7.index t 0 = t.val % 32 ∧ win0_7.index t 1 = 0)

/-! ## The blocks, named at their literal types -/

abbrev B0 (c : Dev nD) (t : Fin cfg0.N) : Vec F S1x4096 .f32 := iblk m c 0 t
abbrev B1 (c : Dev nD) (t : Fin cfg0.N) : Vec F S4096x256 .f32 := iblk m c 1 t
abbrev B2 (c : Dev nD) (t : Fin cfg0.N) : Vec F S1x256 .f32 := iblk m c 2 t
abbrev B3 (c : Dev nD) (t : Fin cfg0.N) : Vec F S256x64 .f32 := iblk m c 3 t
abbrev B4 (c : Dev nD) (t : Fin cfg0.N) : Vec F S1x64 .f32 := iblk m c 4 t
abbrev B5 (c : Dev nD) (t : Fin cfg0.N) : Vec F S4096x256 .f32 := iblk m c 5 t
abbrev B6 (c : Dev nD) (t : Fin cfg0.N) : Vec F S1x256 .f32 := iblk m c 6 t
abbrev B7 (c : Dev nD) (t : Fin cfg0.N) : Vec F S256x64 .f32 := iblk m c 7 t
abbrev B8 (c : Dev nD) (t : Fin cfg0.N) : Vec F S1x64 .f32 := iblk m c 8 t

/-! ## Each block at an entry -/

/-- The input row's block is the whole row at every point. -/
theorem blk0_apply (c : Dev nD) (t : Fin cfg0.N) (a : Fin 4096) :
    (B0 m c t) (ix2 0 a) = (V m c main_arg0 : Vec F S1x4096 .f32) (ix2 0 a) := by
  unfold B0 iblk
  rw [View.read_apply]
  show V m c main_arg0 _ = V m c main_arg0 _
  congr 1
  funext d
  apply Fin.ext
  match d with
  | ⟨0, _⟩ => show win0_0.index t 0 * 1 + 1 * 0 = 0; rw [(idx0 t).1]
  | ⟨1, _⟩ => show win0_0.index t 1 * 4096 + 1 * a.val = a.val; rw [(idx0 t).2]; omega

/-- The first perceptron's second-layer bias is whole at every point. -/
theorem blk4_apply (c : Dev nD) (t : Fin cfg0.N) (o : Fin 64) :
    (B4 m c t) (ix2 0 o) = (V m c main_v2 : Vec F S1x64 .f32) (ix2 0 o) := by
  unfold B4 iblk
  rw [View.read_apply]
  show V m c main_v2 _ = V m c main_v2 _
  congr 1
  funext d
  apply Fin.ext
  match d with
  | ⟨0, _⟩ => show win0_4.index t 0 * 1 + 1 * 0 = 0; rw [(idx4 t).1]
  | ⟨1, _⟩ => show win0_4.index t 1 * 64 + 1 * o.val = o.val; rw [(idx4 t).2]; omega

/-- The second perceptron's second-layer bias is whole at every point. -/
theorem blk8_apply (c : Dev nD) (t : Fin cfg0.N) (o : Fin 64) :
    (B8 m c t) (ix2 0 o) = (V m c main_v3 : Vec F S1x64 .f32) (ix2 0 o) := by
  unfold B8 iblk
  rw [View.read_apply]
  show V m c main_v3 _ = V m c main_v3 _
  congr 1
  funext d
  apply Fin.ext
  match d with
  | ⟨0, _⟩ => show win0_8.index t 0 * 1 + 1 * 0 = 0; rw [(idx8 t).1]
  | ⟨1, _⟩ => show win0_8.index t 1 * 64 + 1 * o.val = o.val; rw [(idx8 t).2]; omega

/-- At a point of the first perceptron, column r of W1a's block is hidden position 256 · (t % 32) + r. -/
theorem blk1_apply (c : Dev nD) (t : Fin cfg0.N) (h : t.val / 32 = 0) (a : Fin 4096) (r : Fin 256) :
    (B1 m c t) (ix2 a r) = (V m c main_arg1 : Vec F S4096x8192 .f32) (ix2 a (hpos ⟨t.val % 32, Nat.mod_lt _ (by decide)⟩ r)) := by
  unfold B1 iblk
  rw [View.read_apply]
  show V m c main_arg1 _ = V m c main_arg1 _
  congr 1
  funext d
  apply Fin.ext
  match d with
  | ⟨0, _⟩ => show win0_1.index t 0 * 4096 + 1 * a.val = a.val; rw [(idx1 t h).1]; omega
  | ⟨1, _⟩ => show win0_1.index t 1 * 256 + 1 * r.val = r.val + 256 * (t.val % 32); rw [(idx1 t h).2]; omega

/-- The same of the first-layer bias b1a, as the [1, 8192] array the call takes. -/
theorem blk2_apply (c : Dev nD) (t : Fin cfg0.N) (h : t.val / 32 = 0) (r : Fin 256) :
    (B2 m c t) (ix2 0 r) = (V m c main_v0 : Vec F S1x8192 .f32) (ix2 0 (hpos ⟨t.val % 32, Nat.mod_lt _ (by decide)⟩ r)) := by
  unfold B2 iblk
  rw [View.read_apply]
  show V m c main_v0 _ = V m c main_v0 _
  congr 1
  funext d
  apply Fin.ext
  match d with
  | ⟨0, _⟩ => show win0_2.index t 0 * 1 + 1 * 0 = 0; rw [(idx2 t h).1]
  | ⟨1, _⟩ => show win0_2.index t 1 * 256 + 1 * r.val = r.val + 256 * (t.val % 32); rw [(idx2 t h).2]; omega

/-- Row r of W2a's block is hidden position 256 · (t % 32) + r. -/
theorem blk3_apply (c : Dev nD) (t : Fin cfg0.N) (h : t.val / 32 = 0) (r : Fin 256) (o : Fin 64) :
    (B3 m c t) (ix2 r o) = (V m c main_arg3 : Vec F S8192x64 .f32) (ix2 (hpos ⟨t.val % 32, Nat.mod_lt _ (by decide)⟩ r) o) := by
  unfold B3 iblk
  rw [View.read_apply]
  show V m c main_arg3 _ = V m c main_arg3 _
  congr 1
  funext d
  apply Fin.ext
  match d with
  | ⟨0, _⟩ => show win0_3.index t 0 * 256 + 1 * r.val = r.val + 256 * (t.val % 32); rw [(idx3 t h).1]; omega
  | ⟨1, _⟩ => show win0_3.index t 1 * 64 + 1 * o.val = o.val; rw [(idx3 t h).2]; omega

/-- At a point of the second perceptron, column r of W1b's block is hidden position 256 · (t % 32) + r. -/
theorem blk5_apply (c : Dev nD) (t : Fin cfg0.N) (h : t.val / 32 = 1) (a : Fin 4096) (r : Fin 256) :
    (B5 m c t) (ix2 a r) = (V m c main_arg5 : Vec F S4096x8192 .f32) (ix2 a (hpos ⟨t.val % 32, Nat.mod_lt _ (by decide)⟩ r)) := by
  unfold B5 iblk
  rw [View.read_apply]
  show V m c main_arg5 _ = V m c main_arg5 _
  congr 1
  funext d
  apply Fin.ext
  match d with
  | ⟨0, _⟩ => show win0_5.index t 0 * 4096 + 1 * a.val = a.val; rw [(idx5 t h).1]; omega
  | ⟨1, _⟩ => show win0_5.index t 1 * 256 + 1 * r.val = r.val + 256 * (t.val % 32); rw [(idx5 t h).2]; omega

/-- The same of the first-layer bias b1b, as the [1, 8192] array the call takes. -/
theorem blk6_apply (c : Dev nD) (t : Fin cfg0.N) (h : t.val / 32 = 1) (r : Fin 256) :
    (B6 m c t) (ix2 0 r) = (V m c main_v1 : Vec F S1x8192 .f32) (ix2 0 (hpos ⟨t.val % 32, Nat.mod_lt _ (by decide)⟩ r)) := by
  unfold B6 iblk
  rw [View.read_apply]
  show V m c main_v1 _ = V m c main_v1 _
  congr 1
  funext d
  apply Fin.ext
  match d with
  | ⟨0, _⟩ => show win0_6.index t 0 * 1 + 1 * 0 = 0; rw [(idx6 t h).1]
  | ⟨1, _⟩ => show win0_6.index t 1 * 256 + 1 * r.val = r.val + 256 * (t.val % 32); rw [(idx6 t h).2]; omega

/-- Row r of W2b's block is hidden position 256 · (t % 32) + r. -/
theorem blk7_apply (c : Dev nD) (t : Fin cfg0.N) (h : t.val / 32 = 1) (r : Fin 256) (o : Fin 64) :
    (B7 m c t) (ix2 r o) = (V m c main_arg7 : Vec F S8192x64 .f32) (ix2 (hpos ⟨t.val % 32, Nat.mod_lt _ (by decide)⟩ r) o) := by
  unfold B7 iblk
  rw [View.read_apply]
  show V m c main_arg7 _ = V m c main_arg7 _
  congr 1
  funext d
  apply Fin.ext
  match d with
  | ⟨0, _⟩ => show win0_7.index t 0 * 256 + 1 * r.val = r.val + 256 * (t.val % 32); rw [(idx7 t h).1]; omega
  | ⟨1, _⟩ => show win0_7.index t 1 * 64 + 1 * o.val = o.val; rw [(idx7 t h).2]; omega

/-! ## The reshaped bias arrays -/

/-- A vector of length n viewed as a [1, n] array has entry (0, p) at p. -/
theorem reshape_row_apply {α : Type} {n : Nat} (b : (⟨1, ![n]⟩ : Shape).Idx → α) (h : (⟨1, ![n]⟩ : Shape).ShapeCasts ⟨2, ![1, n]⟩) (p : Fin n) :
    shapeCast ⟨2, ![1, n]⟩ b h (ix2 0 p) = b (ix1 p) := by
  refine (shapeCast_addUnit_apply ![n] b h (ix2 0 p)).trans (congrArg b ?_)
  funext d
  match d with
  | ⟨0, _⟩ => rfl

theorem V_v0 (c : Dev nD) : (V m c main_v0 : Vec F S1x8192 .f32) = shapeCast S1x8192 (m ((c : Thread nD τ).loc main_arg2)) Gen.shapeCasts_S8192_S1x8192 := by
  show StableHlo.after hostOps0 (fun b => m (c, b)) (Proc.devRef .tc main_v0) = _
  after_results
  rfl
theorem V_v1 (c : Dev nD) : (V m c main_v1 : Vec F S1x8192 .f32) = shapeCast S1x8192 (m ((c : Thread nD τ).loc main_arg6)) Gen.shapeCasts_S8192_S1x8192 := by
  show StableHlo.after hostOps0 (fun b => m (c, b)) (Proc.devRef .tc main_v1) = _
  after_results
  rfl
theorem V_v2 (c : Dev nD) : (V m c main_v2 : Vec F S1x64 .f32) = shapeCast S1x64 (m ((c : Thread nD τ).loc main_arg4)) Gen.shapeCasts_S64_S1x64 := by
  show StableHlo.after hostOps0 (fun b => m (c, b)) (Proc.devRef .tc main_v2) = _
  after_results
  rfl
theorem V_v3 (c : Dev nD) : (V m c main_v3 : Vec F S1x64 .f32) = shapeCast S1x64 (m ((c : Thread nD τ).loc main_arg8)) Gen.shapeCasts_S64_S1x64 := by
  show StableHlo.after hostOps0 (fun b => m (c, b)) (Proc.devRef .tc main_v3) = _
  after_results
  rfl

end Cert.TwoMlp.Kernel

end
-- ==== Proof.Invariant.lean ====
/-
  The scratch row after each grid point is the running sum of its perceptron's chunks.

  Point t belongs to perceptron t / 32 and chunk t % 32. The row the body adds there is that chunk's term of the
  specification: Σ_r hidden (256·(t % 32) + r) · W2 (256·(t % 32) + r, o), of the first perceptron's arrays when
  t / 32 = 0 and of the second's when t / 32 = 1 (the body computes both and keeps the one the first grid
  coordinate names). The first chunk starts the scratch at 0 + row and each later chunk adds its row to what the
  point before left; so after point t the scratch holds the running sum of chunks 0 … t % 32. This is an induction
  on the point: nothing is enumerated.
-/
import proofs.«116464_j46866683134472_1_alg».proof.Proof.Pay
import proofs.«116464_j46866683134472_1_alg».proof.Proof.Pieces
import proofs.«116464_j46866683134472_1_alg».proof.Proof.Blocks
import proofs.«116464_j46866683134472_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.TwoMlp.Kernel

open Cert.KernelIdeal Cert.KernelIdeal.Gen Cert.TwoMlp

variable (m : (ℓ : Loc nD τ sig) → Buf (Elt Ideal) ℓ)

/-! ## The argument arrays -/

abbrev argX (c : Dev nD) : Vec Ideal S1x4096 .f32 := m ((c : Thread nD τ).loc main_arg0)
abbrev argW1a (c : Dev nD) : Vec Ideal S4096x8192 .f32 := m ((c : Thread nD τ).loc main_arg1)
abbrev argB1a (c : Dev nD) : Vec Ideal S8192 .f32 := m ((c : Thread nD τ).loc main_arg2)
abbrev argW2a (c : Dev nD) : Vec Ideal S8192x64 .f32 := m ((c : Thread nD τ).loc main_arg3)
abbrev argB2a (c : Dev nD) : Vec Ideal S64 .f32 := m ((c : Thread nD τ).loc main_arg4)
abbrev argW1b (c : Dev nD) : Vec Ideal S4096x8192 .f32 := m ((c : Thread nD τ).loc main_arg5)
abbrev argB1b (c : Dev nD) : Vec Ideal S8192 .f32 := m ((c : Thread nD τ).loc main_arg6)
abbrev argW2b (c : Dev nD) : Vec Ideal S8192x64 .f32 := m ((c : Thread nD τ).loc main_arg7)
abbrev argB2b (c : Dev nD) : Vec Ideal S64 .f32 := m ((c : Thread nD τ).loc main_arg8)

/-- Chunk j's term for output o, of perceptron k (0: the first; otherwise the second). -/
def chunkAt (c : Dev nD) (k : ℕ) (o : Fin 64) (j : Fin 32) : EReal :=
  if k = 0 then chunk (argX m c) (argW1a m c) (argB1a m c) (argW2a m c) o j
  else chunk (argX m c) (argW1b m c) (argB1b m c) (argW2b m c) o j

/-! ## The row a point adds -/

/-- At a point of the first perceptron its part of the blocks is chunk t % 32 of the specification. -/
theorem part_first (c : Dev nD) (t : Fin cfg0.N) (h : t.val / 32 = 0) (o : Fin 64) :
    part (F := Ideal) (B0 m c t) (B1 m c t) (B2 m c t) (B3 m c t) (ix2 0 o)
      = chunk (argX m c) (argW1a m c) (argB1a m c) (argW2a m c) o ⟨t.val % 32, Nat.mod_lt _ (by decide)⟩ := by
  refine (part_apply (B0 m c t) (B1 m c t) (B2 m c t) (B3 m c t) o).trans ?_
  unfold chunk hidden
  refine Finset.sum_congr rfl fun r _ => ?_
  have e1 : ∀ a : Fin 4096, B0 m c t (ix2 0 a) * B1 m c t (ix2 a r) = argX m c (ix2 0 a) * argW1a m c (ix2 a (hpos ⟨t.val % 32, Nat.mod_lt _ (by decide)⟩ r)) := fun a => by
    rw [blk0_apply m c t a, blk1_apply m c t h a r, V_main_arg0, V_main_arg1]
  have e2 : B2 m c t (ix2 0 r) = argB1a m c (ix1 (hpos ⟨t.val % 32, Nat.mod_lt _ (by decide)⟩ r)) := by
    rw [blk2_apply m c t h r, V_v0, reshape_row_apply]
  have e3 : B3 m c t (ix2 r o) = argW2a m c (ix2 (hpos ⟨t.val % 32, Nat.mod_lt _ (by decide)⟩ r) o) := by
    rw [blk3_apply m c t h r o, V_main_arg3]
  rw [Finset.sum_congr rfl (fun a _ => e1 a), e2, e3]

/-- At a point of the second perceptron likewise. -/
theorem part_second (c : Dev nD) (t : Fin cfg0.N) (h : t.val / 32 = 1) (o : Fin 64) :
    part (F := Ideal) (B0 m c t) (B5 m c t) (B6 m c t) (B7 m c t) (ix2 0 o)
      = chunk (argX m c) (argW1b m c) (argB1b m c) (argW2b m c) o ⟨t.val % 32, Nat.mod_lt _ (by decide)⟩ := by
  refine (part_apply (B0 m c t) (B5 m c t) (B6 m c t) (B7 m c t) o).trans ?_
  unfold chunk hidden
  refine Finset.sum_congr rfl fun r _ => ?_
  have e1 : ∀ a : Fin 4096, B0 m c t (ix2 0 a) * B5 m c t (ix2 a r) = argX m c (ix2 0 a) * argW1b m c (ix2 a (hpos ⟨t.val % 32, Nat.mod_lt _ (by decide)⟩ r)) := fun a => by
    rw [blk0_apply m c t a, blk5_apply m c t h a r, V_main_arg0, V_main_arg5]
  have e2 : B6 m c t (ix2 0 r) = argB1b m c (ix1 (hpos ⟨t.val % 32, Nat.mod_lt _ (by decide)⟩ r)) := by
    rw [blk6_apply m c t h r, V_v1, reshape_row_apply]
  have e3 : B7 m c t (ix2 r o) = argW2b m c (ix2 (hpos ⟨t.val % 32, Nat.mod_lt _ (by decide)⟩ r) o) := by
    rw [blk7_apply m c t h r o, V_main_arg7]
  rw [Finset.sum_congr rfl (fun a _ => e1 a), e2, e3]

/-- The row the body adds at point t, at output o: chunk t % 32 of perceptron t / 32. -/
theorem row_apply (c : Dev nD) (t : Fin cfg0.N) (o : Fin 64) :
    k0_pay4 (F := Ideal) (grid0.coords t) (B0 m c t) (B1 m c t) (B2 m c t) (B3 m c t) (B5 m c t) (B6 m c t) (B7 m c t) (ix2 0 o)
      = chunkN (chunkAt m c (t.val / 32) o) (t.val % 32) := by
  have hN : t.val < 64 := lt_of_lt_of_eq t.isLt (show cfg0.N = 64 from N_0)
  refine (pay4_apply (grid0.coords t) (B0 m c t) (B1 m c t) (B2 m c t) (B3 m c t) (B5 m c t) (B6 m c t) (B7 m c t) o).trans ?_
  rw [(coords_eq t).1, chunkN_of_lt _ _ (Nat.mod_lt _ (by decide))]
  unfold chunkAt
  by_cases h : t.val / 32 = 0
  · rw [if_pos h, if_pos h]; exact part_first m c t h o
  · have h1 : t.val / 32 = 1 := by omega
    rw [if_neg h, if_neg h]; exact part_second m c t h1 o

/-! ## One update of the scratch, at an entry -/

theorem first_update (i : grid0.Coords) (x : Vec Ideal S1x4096 .f32) (w1a : Vec Ideal S4096x256 .f32) (b1a : Vec Ideal S1x256 .f32) (w2a : Vec Ideal S256x64 .f32)
    (w1b : Vec Ideal S4096x256 .f32) (b1b : Vec Ideal S1x256 .f32) (w2b : Vec Ideal S256x64 .f32) (o : Fin 64) :
    k0_pay1 (k0_pay4 (F := Ideal) i x w1a b1a w2a w1b b1b w2b) (k0_pay3 (F := Ideal)) (ix2 0 o)
      = 0 + k0_pay4 (F := Ideal) i x w1a b1a w2a w1b b1b w2b (ix2 0 o) := by
  rw [pay1_eq, pay3_eq]
  show Ideal.ofBits .f32 0x00000000#32 + _ = _
  rw [Ideal.ofBits_zero_f32]

theorem next_update (i : grid0.Coords) (x : Vec Ideal S1x4096 .f32) (w1a : Vec Ideal S4096x256 .f32) (b1a : Vec Ideal S1x256 .f32) (w2a : Vec Ideal S256x64 .f32)
    (w1b : Vec Ideal S4096x256 .f32) (b1b : Vec Ideal S1x256 .f32) (w2b : Vec Ideal S256x64 .f32) (acc : Vec Ideal S1x64 .f32) (o : Fin 64) :
    k0_pay1 (k0_pay4 (F := Ideal) i x w1a b1a w2a w1b b1b w2b) acc (ix2 0 o)
      = acc (ix2 0 o) + k0_pay4 (F := Ideal) i x w1a b1a w2a w1b b1b w2b (ix2 0 o) := by
  rw [pay1_eq]
  rfl

/-! ## The invariant -/

/-- After point n the scratch holds, at output o, the running sum of chunks 0 … n % 32 of perceptron n / 32. -/
theorem scratch_eq (c : Dev nD) : ∀ (n : ℕ) (hn : n < cfg0.N) (o : Fin 64),
    (outsAt0 m c n hn).2 (ix2 0 o) = accN (chunkN (chunkAt m c (n / 32) o)) (n % 32)
  | 0, hn, o => by
    have h0 : (⟨0, hn⟩ : Fin cfg0.N).val % 32 = 0 := rfl
    have h1 : ¬(⟨0, hn⟩ : Fin cfg0.N).val % 32 = 31 := fun h => absurd h (by decide : ¬(0 % 32 = 31))
    rw [outsAt0_A m c ⟨0, hn⟩ h0 h1]
    dsimp only
    refine (congrFun (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)) (ix2 0 o)).trans ?_
    refine (first_update (grid0.coords ⟨0, hn⟩) (B0 m c ⟨0, hn⟩) (B1 m c ⟨0, hn⟩) (B2 m c ⟨0, hn⟩) (B3 m c ⟨0, hn⟩) (B5 m c ⟨0, hn⟩) (B6 m c ⟨0, hn⟩) (B7 m c ⟨0, hn⟩) o).trans ?_
    rw [row_apply m c ⟨0, hn⟩ o]
    rfl
  | n + 1, hn, o => by
    have hN : n + 1 < 64 := lt_of_lt_of_eq hn (show cfg0.N = 64 from N_0)
    by_cases h0 : (n + 1) % 32 = 0
    · have h1 : ¬(n + 1) % 32 = 31 := by omega
      rw [outsAt0_A m c ⟨n + 1, hn⟩ h0 h1]
      dsimp only
      refine (congrFun (sout_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)) (ix2 0 o)).trans ?_
      refine (first_update (grid0.coords ⟨n + 1, hn⟩) (B0 m c ⟨n + 1, hn⟩) (B1 m c ⟨n + 1, hn⟩) (B2 m c ⟨n + 1, hn⟩) (B3 m c ⟨n + 1, hn⟩) (B5 m c ⟨n + 1, hn⟩) (B6 m c ⟨n + 1, hn⟩) (B7 m c ⟨n + 1, hn⟩) o).trans ?_
      rw [row_apply m c ⟨n + 1, hn⟩ o]
      show 0 + chunkN (chunkAt m c ((n + 1) / 32) o) ((n + 1) % 32) = accN (chunkN (chunkAt m c ((n + 1) / 32) o)) ((n + 1) % 32)
      rw [h0]
      rfl
    · have e1 : (n + 1) / 32 = n / 32 := by omega
      have e2 : (n + 1) % 32 = n % 32 + 1 := by omega
      by_cases h1 : (n + 1) % 32 = 31
      · rw [outsAt0_C m c ⟨n + 1, hn⟩ h0 h1]
        dsimp only
        refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 m c n (Nat.lt_of_succ_lt hn)).2) (ix2 0 o)).trans ?_
        refine (next_update (grid0.coords ⟨n + 1, hn⟩) (B0 m c ⟨n + 1, hn⟩) (B1 m c ⟨n + 1, hn⟩) (B2 m c ⟨n + 1, hn⟩) (B3 m c ⟨n + 1, hn⟩) (B5 m c ⟨n + 1, hn⟩) (B6 m c ⟨n + 1, hn⟩) (B7 m c ⟨n + 1, hn⟩) (outsAt0 m c n (Nat.lt_of_succ_lt hn)).2 o).trans ?_
        rw [row_apply m c ⟨n + 1, hn⟩ o, scratch_eq c n (Nat.lt_of_succ_lt hn) o]
        show accN (chunkN (chunkAt m c (n / 32) o)) (n % 32) + chunkN (chunkAt m c ((n + 1) / 32) o) ((n + 1) % 32) = accN (chunkN (chunkAt m c ((n + 1) / 32) o)) ((n + 1) % 32)
        rw [e1, e2]
        rfl
      · rw [outsAt0_B m c ⟨n + 1, hn⟩ h0 h1]
        dsimp only
        refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 m c n (Nat.lt_of_succ_lt hn)).2) (ix2 0 o)).trans ?_
        refine (next_update (grid0.coords ⟨n + 1, hn⟩) (B0 m c ⟨n + 1, hn⟩) (B1 m c ⟨n + 1, hn⟩) (B2 m c ⟨n + 1, hn⟩) (B3 m c ⟨n + 1, hn⟩) (B5 m c ⟨n + 1, hn⟩) (B6 m c ⟨n + 1, hn⟩) (B7 m c ⟨n + 1, hn⟩) (outsAt0 m c n (Nat.lt_of_succ_lt hn)).2 o).trans ?_
        rw [row_apply m c ⟨n + 1, hn⟩ o, scratch_eq c n (Nat.lt_of_succ_lt hn) o]
        show accN (chunkN (chunkAt m c (n / 32) o)) (n % 32) + chunkN (chunkAt m c ((n + 1) / 32) o) ((n + 1) % 32) = accN (chunkN (chunkAt m c ((n + 1) / 32) o)) ((n + 1) % 32)
        rw [e1, e2]
        rfl

end Cert.TwoMlp.Kernel

end
-- ==== Proof.Final.lean ====
/-
  The output array after the run.

  Only the last chunk of a perceptron (points 31 and 63) stores the output block and has it written back, to row
  t / 32 of the [2, 1, 64] output array. By then the scratch holds the running sum of all 32 chunks, which is the
  whole second-layer sum over the 8192 hidden positions; the body adds that perceptron's second-layer bias and
  clamps below at 0. So row k of the array ends holding perceptron k's output, and the two rows are the whole array.
-/
import proofs.«116464_j46866683134472_1_alg».proof.Proof.Invariant
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.TwoMlp.Kernel

open Cert.KernelIdeal Cert.KernelIdeal.Gen Cert.TwoMlp

variable (m : (ℓ : Loc nD τ sig) → Buf (Elt Ideal) ℓ)

/-- The output array: row 0 the first perceptron's output, row 1 the second's. -/
def outArr (c : Dev nD) : Buf (Elt Ideal) ((c : Thread nD τ).loc main_v4) :=
  (fun i : S2x1x64.Idx =>
    if (i 0).val = 0 then out (argX m c) (argW1a m c) (argB1a m c) (argW2a m c) (argB2a m c) (i 2)
    else out (argX m c) (argW1b m c) (argB1b m c) (argW2b m c) (argB2b m c) (i 2) : Vec Ideal S2x1x64 .f32)

theorem outArr_apply (c : Dev nD) (k : Fin 2) (q : Fin 1) (o : Fin 64) :
    (outArr m c : Vec Ideal S2x1x64 .f32) (ix3 k q o)
      = if k.val = 0 then out (argX m c) (argW1a m c) (argB1a m c) (argW2a m c) (argB2a m c) o
        else out (argX m c) (argW1b m c) (argB1b m c) (argW2b m c) (argB2b m c) o := rfl

/-- Output window: block (t / 32, 0, 0), of extents [1, 1, 64]. -/
theorem idx9 : ∀ t : Fin cfg0.N, win0_9.index t 0 = t.val / 32 ∧ win0_9.index t 1 = 0 ∧ win0_9.index t 2 = 0 :=
  (by decide +kernel : ∀ t : Fin grid0.N, win0_9.index t 0 = t.val / 32 ∧ win0_9.index t 1 = 0 ∧ win0_9.index t 2 = 0)

/-- The stored output block at entry o: max (acc + bias) 0, the bias chosen by the word v0. -/
theorem store_apply (v0 : BitVec 1) (ba bb acc : Vec Ideal S1x64 .f32) (o : Fin 64) :
    k0_pay2 (F := Ideal) v0 ba bb acc (ix3 0 0 o) = max (acc (ix2 0 o) + Scalar.select v0 ba bb (ix2 0 o)) 0 := by
  rw [pay2_eq]
  refine (shapeCast_addUnit_apply ![1, 64] _ Gen.shapeCasts_S1x64_S1x1x64 (ix3 0 0 o)).trans ?_
  have e : (fun a : Fin 2 => (ix3 (0 : Fin 1) (0 : Fin 1) o) a.succ) = ix2 0 o :=
    funext fun a => by match a with | ⟨0, _⟩ => rfl | ⟨1, _⟩ => rfl
  rw [e]
  show max (acc (ix2 0 o) + Scalar.select v0 ba bb (ix2 0 o)) (Ideal.ofBits .f32 0x00000000#32) = _
  rw [Ideal.ofBits_zero_f32]

/-- The second-layer biases as the call sees them, at an entry. -/
theorem bias_a (c : Dev nD) (t : Fin cfg0.N) (o : Fin 64) : B4 m c t (ix2 0 o) = argB2a m c (ix1 o) := by
  rw [blk4_apply m c t o, V_v2, reshape_row_apply]
theorem bias_b (c : Dev nD) (t : Fin cfg0.N) (o : Fin 64) : B8 m c t (ix2 0 o) = argB2b m c (ix1 o) := by
  rw [blk8_apply m c t o, V_v3, reshape_row_apply]

/-- What the output's staging buffer holds after a last chunk, at an entry: that perceptron's output. -/
theorem stored_apply (c : Dev nD) (t : Fin cfg0.N) (h1 : t.val % 32 = 31) (y : S1x1x64.Idx) :
    ((outsAt0 m c t.val t.isLt).1 : Vec Ideal S1x1x64 .f32) y
      = if t.val / 32 = 0 then out (argX m c) (argW1a m c) (argB1a m c) (argW2a m c) (argB2a m c) (y 2)
        else out (argX m c) (argW1b m c) (argB1b m c) (argW2b m c) (argB2b m c) (y 2) := by
  have hN : t.val < 64 := lt_of_lt_of_eq t.isLt (show cfg0.N = 64 from N_0)
  have h0 : ¬t.val % 32 = 0 := by omega
  obtain ⟨p, q, o, rfl⟩ : ∃ (p : Fin 1) (q : Fin 1) (o : Fin 64), y = ix3 p q o := ⟨y 0, y 1, y 2, eq_ix3 y⟩
  obtain rfl : p = 0 := Subsingleton.elim _ _
  obtain rfl : q = 0 := Subsingleton.elim _ _
  -- the scratch the store reads is this point's own scratch contents
  have hs : k0_pay1 (k0_pay4 (F := Ideal) (grid0.coords t) (B0 m c t) (B1 m c t) (B2 m c t) (B3 m c t) (B5 m c t) (B6 m c t) (B7 m c t)) (outsAt0 m c (t.val - 1) (Nat.lt_of_le_of_lt (Nat.sub_le _ _) t.isLt)).2
      = (outsAt0 m c t.val t.isLt).2 := by
    rw [outsAt0_C m c t h0 h1]
    dsimp only
    exact (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2).symm
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) (ix3 0 0 o)).trans ?_
  refine (store_apply (IntOp.cmpi .eq (BitVec.ofNat 32 ((grid0.coords t) 0).val) 0#32) (B4 m c t) (B8 m c t)
    (k0_pay1 (k0_pay4 (F := Ideal) (grid0.coords t) (B0 m c t) (B1 m c t) (B2 m c t) (B3 m c t) (B5 m c t) (B6 m c t) (B7 m c t)) (outsAt0 m c (t.val - 1) (Nat.lt_of_le_of_lt (Nat.sub_le _ _) t.isLt)).2) o).trans ?_
  rw [hs, scratch_eq m c t.val t.isLt o, h1, select_eq0 ((grid0.coords t) 0).val ((grid0.coords t) 0).isLt, (coords_eq t).1]
  show max (_ + (if t.val / 32 = 0 then B4 m c t else B8 m c t) (ix2 0 o)) 0 = _
  by_cases hk : t.val / 32 = 0
  · rw [if_pos hk, if_pos hk, bias_a m c t o]
    unfold chunkAt
    simp only [hk, if_true]
    rw [acc_chunks_eq]
    rfl
  · rw [if_neg hk, if_neg hk, bias_b m c t o]
    unfold chunkAt
    simp only [hk, if_false]
    rw [acc_chunks_eq]
    rfl

/-- What a write-back of the output window writes is its block of the output array. -/
theorem flushed_eq (c : Dev nD) (t : Fin cfg0.N) (hf : (cfg0.win 9).flush t = true) :
    (dats m 0 c).flushed 9 t = ((cfg0.win 9).blk t).view.read (Elt Ideal) (outArr m c) := by
  have h1 : t.val % 32 = 31 := (flush0_9 t).mp hf
  have hN : t.val < 64 := lt_of_lt_of_eq t.isLt (show cfg0.N = 64 from N_0)
  funext y
  rw [View.read_apply]
  show ((outsAt0 m c t.val t.isLt).1 : Vec Ideal S1x1x64 .f32) y = (outArr m c : Vec Ideal S2x1x64 .f32) (((cfg0.win 9).blk t).view.emb y)
  refine (stored_apply m c t h1 y).trans ?_
  have hk : t.val / 32 < 2 := by omega
  have e : ((cfg0.win 9).blk t).view.emb y = ix3 (⟨t.val / 32, hk⟩ : Fin 2) (0 : Fin 1) (y 2) := by
    funext d
    apply Fin.ext
    match d with
    | ⟨0, _⟩ => show win0_9.index t 0 * 1 + 1 * (y 0).val = t.val / 32; rw [(idx9 t).1]; have hy : ((y : S1x1x64.Idx) 0).val < 1 := (y 0).isLt; omega
    | ⟨1, _⟩ => show win0_9.index t 1 * 1 + 1 * (y 1).val = 0; rw [(idx9 t).2.1]; have hy : ((y : S1x1x64.Idx) 1).val < 1 := (y 1).isLt; omega
    | ⟨2, _⟩ => show win0_9.index t 2 * 64 + 1 * (y 2).val = (y 2).val; rw [(idx9 t).2.2]; omega
  rw [e]
  rfl

/-- The two last-chunk points' blocks cover the output array. -/
theorem out_cover (c : Dev nD) (i : ((cfg0.win 9).arr.view.loc (c.tc : Thread nD τ)).2.ty.Idx) :
    ∃ t : Fin cfg0.N, (cfg0.win 9).flush t = true ∧ i ∈ ((cfg0.win 9).blk t).view.set := by
  have hN : cfg0.N = 64 := N_0
  have hi0 : ((i : S2x1x64.Idx) 0).val < 2 := (i 0).isLt
  have hi1 : ((i : S2x1x64.Idx) 1).val < 1 := (i 1).isLt
  have hi2 : ((i : S2x1x64.Idx) 2).val < 64 := (i 2).isLt
  let t : Fin cfg0.N := ⟨32 * ((i : S2x1x64.Idx) 0).val + 31, by rw [hN]; omega⟩
  have ht : t.val = 32 * ((i : S2x1x64.Idx) 0).val + 31 := rfl
  refine ⟨t, (flush0_9 t).mpr (by rw [ht]; omega), ?_⟩
  show i ∈ ((View.whole main_v4).slice (win0_9.rect t)).set
  rw [View.set_slice_whole, Rect.mem_set_unit]
  intro a
  match a with
  | ⟨0, _⟩ =>
    show win0_9.index t 0 * 1 ≤ (i 0 : Nat) ∧ (i 0 : Nat) < win0_9.index t 0 * 1 + 1
    rw [(idx9 t).1, ht]; omega
  | ⟨1, _⟩ =>
    show win0_9.index t 1 * 1 ≤ (i 1 : Nat) ∧ (i 1 : Nat) < win0_9.index t 1 * 1 + 1
    rw [(idx9 t).2.1]; omega
  | ⟨2, _⟩ =>
    show win0_9.index t 2 * 64 ≤ (i 2 : Nat) ∧ (i 2 : Nat) < win0_9.index t 2 * 64 + 64
    rw [(idx9 t).2.2]; omega

/-- So the output array ends holding the two perceptrons' outputs. -/
theorem final_out (c : Dev nD) : (dats m 0 c).arrAt 9 cfg0.N = outArr m c :=
  (dats m 0 c).arrAt_eq_of_cover 9 (outArr m c) (flushed_eq m c) (out_cover c)

end Cert.TwoMlp.Kernel

end
-- ==== Proof.Tail.lean ====
/-
  What the operations after the pallas_call compute from the call's output array.

  The call writes an array A of shape [2,1,64]. The operations that follow take A's two rows — the slices of extent
  [1,1,64] at offsets (0,0,0) and (1,0,0), each viewed as a [1,64] vector a, b by dropping the leading unit axis —,
  compare each with the constant 0 spread over [1,64], and select entry by entry: (a + b) · ½ where a > 0 and b > 0;
  else a where a > 0 and b = 0; else b where a = 0 and b > 0; else 0. The three selections are nested, the innermost
  computed first.

  Each operation's result buffer is written once and by no later operation, so the final contents of the result buffer
  are one composed vector over what the buffers held when the region ended; the only buffer the composed vector reads
  that the operations themselves do not write is A, which the region leaves at the contents recorded for its output
  window after the last grid point (tail_eq).

  Comparison, conjunction, addition, multiplication and selection of vectors are entrywise, and a spread constant reads
  its scalar at every entry. Dropping the unit axis reads entry (0, i₀, i₁) at (i₀, i₁), where i₀ = 0 because that axis
  has length 1, and the slice at offset (r,0,0) reads entry (r + 0, 0, i₁). So entry i of the result is the scalar
  combination (Spec: comb) of A (0, 0, i₁) and A (1, 0, i₁) (tail_apply).
-/
import proofs.«116464_j46866683134472_1_alg».proof.Proof.Gen.KernelIdeal.Frame
import proofs.«116464_j46866683134472_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.TwoMlp.Kernel

open Idealize.ShloMosaic Idealize.ShloMosaic.TcCoe Idealize.SL.Sem Idealize.ShloMosaic.ValueIdx
open Cert.KernelIdeal Cert.KernelIdeal.Gen Cert.TwoMlp
open Idealize.ShloMosaic.Pipeline (Dat)

/-- Row 0 of a [2,1,64] array, viewed as a [1,64] vector: the slice at offset (0,0,0), its leading unit axis dropped. -/
def row0 (A : FVec Ideal S2x1x64 .f32) : FVec Ideal S1x64 .f32 :=
  shapeCast S1x64 (extractStridedSlice S1x1x64 ![0, 0, 0] A slices_S2x1x64_S1x1x64_0_0_0) shapeCasts_S1x1x64_S1x64
/-- Row 1 likewise: the slice at offset (1,0,0), its leading unit axis dropped. -/
def row1 (A : FVec Ideal S2x1x64 .f32) : FVec Ideal S1x64 .f32 :=
  shapeCast S1x64 (extractStridedSlice S1x1x64 ![1, 0, 0] A slices_S2x1x64_S1x1x64_1_0_0) shapeCasts_S1x1x64_S1x64

/-- The scalar with bit pattern w at every entry of a [1,64] vector. -/
def splat (w : BitVec 32) : FVec Ideal S1x64 .f32 :=
  broadcastInDim S1x64 ![] bcast_S_S1x64 (constant S_ .f32 w)

/-- What the operations after the call compute from the call's output array A, as one vector: with a, b the two rows
    of A, (a + b) · ½ where both are positive, else a where a > 0 = b, else b where a = 0 < b, else 0. -/
def tailVec (A : FVec Ideal S2x1x64 .f32) : FVec Ideal S1x64 .f32 :=
  select (andi (cmpf .ogt (row0 A) (splat 0x00000000#32)) (cmpf .ogt (row1 A) (splat 0x00000000#32)))
    (mulf (addf (row0 A) (row1 A)) (splat 0x3F000000#32))
    (select (andi (cmpf .ogt (row0 A) (splat 0x00000000#32)) (cmpf .oeq (row1 A) (splat 0x00000000#32)))
      (row0 A)
      (select (andi (cmpf .oeq (row0 A) (splat 0x00000000#32)) (cmpf .ogt (row1 A) (splat 0x00000000#32)))
        (row1 A)
        (splat 0x00000000#32)))

/-- Entry i of row 0 is the array's entry (0, 0, i₁): dropping the unit axis reads (0, i₀, i₁), i₀ = 0 as the axis has
    length 1, and the slice at offset (0,0,0) shifts nothing. -/
theorem row0_apply (A : FVec Ideal S2x1x64 .f32) (i : S1x64.Idx) : row0 A i = A (ix3 0 0 (i 1)) := by
  unfold row0
  refine (shapeCast_dropUnit_apply ![1, 64] _ shapeCasts_S1x1x64_S1x64 i).trans ?_
  refine extractStridedSlice_apply _ _ _ _ _ fun a => ?_
  have h0 : (i 0).val = 0 := by have := (i 0).isLt; simp at this; omega
  match a with
  | ⟨0, _⟩ => rfl
  | ⟨1, _⟩ => show (0 : ℕ) = 0 + (i 0).val; omega
  | ⟨2, _⟩ => show (i 1).val = 0 + (i 1).val; omega
  | ⟨n + 3, h⟩ => exact absurd (show n + 3 < 3 from h) (by omega)

/-- Entry i of row 1 is the array's entry (1, 0, i₁): the slice at offset (1,0,0) shifts the first coordinate by 1. -/
theorem row1_apply (A : FVec Ideal S2x1x64 .f32) (i : S1x64.Idx) : row1 A i = A (ix3 1 0 (i 1)) := by
  unfold row1
  refine (shapeCast_dropUnit_apply ![1, 64] _ shapeCasts_S1x1x64_S1x64 i).trans ?_
  refine extractStridedSlice_apply _ _ _ _ _ fun a => ?_
  have h0 : (i 0).val = 0 := by have := (i 0).isLt; simp at this; omega
  match a with
  | ⟨0, _⟩ => rfl
  | ⟨1, _⟩ => show (0 : ℕ) = 0 + (i 0).val; omega
  | ⟨2, _⟩ => show (i 1).val = 0 + (i 1).val; omega
  | ⟨n + 3, h⟩ => exact absurd (show n + 3 < 3 from h) (by omega)

/-- The composed vector read at entry i: every operation in it is entrywise and a splat reads its scalar, so entry i is
    the scalar combination of the two rows' entries i, which are the array's entries (0, 0, i₁) and (1, 0, i₁). -/
theorem tailVec_apply (A : FVec Ideal S2x1x64 .f32) (i : S1x64.Idx) :
    tailVec A i = comb (F := Ideal) (A (ix3 0 0 (i 1))) (A (ix3 1 0 (i 1))) := by
  refine Eq.trans ?_ (congrArg₂ (comb (F := Ideal)) (row0_apply A i) (row1_apply A i))
  rfl

variable (m : (ℓ : Loc nD τ sig) → Buf (Elt Ideal) ℓ)

/-- When the region ends, the call's output array (window 9's array) holds what the proof data say it holds after the
    last grid point; the operations after the call start from there. -/
theorem exit_main_v4 (c : Dev nD) :
    Pipeline.withArrays (cfgs 0).spec c (V0 m c) (fun w => (dats m 0 c).arrAt w (cfgs 0).N) (Proc.devRef .tc main_v4)
      = (dats m 0 c).arrAt 9 cfg0.N :=
  Pipeline.withArrays_arr spec0 launch0.win.arr_inj c _ _ 9

set_option maxHeartbeats 1000000 in
/-- The result buffer after the operations that follow the call, as one vector over the call's output array: each
    operation's result is its function of its operands' contents, a buffer no later operation writes keeps its contents,
    and the only buffer read that no operation of the tail writes is the call's output array. -/
theorem tail_eq (c : Dev nD) :
    (Pipeline.afterTail₀ cfgs (dats m) 0 (V0 m) [hostOps1, hostOps1_1, hostOps1_2, hostOps1_3] c main_v25 : FVec Ideal S1x64 .f32)
      = tailVec ((dats m 0 c).arrAt 9 cfg0.N) := by
  unfold Pipeline.afterTail₀
  simp only [hostOps1, hostOps1_1, hostOps1_2, hostOps1_3, List.flatten_cons, List.flatten_nil, List.append_nil, List.cons_append,
    List.nil_append]
  after_results_simp
  rw [exit_main_v4 m c]
  rfl

/-- Entry i of the program's result is the combination of the entries (0, 0, i₁) and (1, 0, i₁) of the call's output
    array. -/
theorem tail_apply (c : Dev nD) (i : S1x64.Idx) :
    (Pipeline.afterTail₀ cfgs (dats m) 0 (V0 m) [hostOps1, hostOps1_1, hostOps1_2, hostOps1_3] c main_v25 : Vec Ideal S1x64 .f32) i
      = comb (F := Ideal) (((dats m 0 c).arrAt 9 cfg0.N : Vec Ideal S2x1x64 .f32) (ix3 0 0 (i 1)))
          (((dats m 0 c).arrAt 9 cfg0.N : Vec Ideal S2x1x64 .f32) (ix3 1 0 (i 1))) :=
  (congrFun (tail_eq m c) i).trans (tailVec_apply _ i)

end Cert.TwoMlp.Kernel

end
-- ==== Proof.KernelRun.lean ====
/-
  The idealized kernel program's run, read: its result is the entrywise combination of the two perceptrons' outputs.

  After the call the host takes rows 0 and 1 of the output array and combines them entry by entry; the array holds
  the two perceptrons' outputs, so entry o of the result is comb (out of the first) (out of the second) at o. The
  argument arrays end as they were launched: those the call stages through a window are never written back, and
  the four bias vectors, which the call takes only reshaped, are written by no operation.
-/
import proofs.«116464_j46866683134472_1_alg».proof.Proof.Final
import proofs.«116464_j46866683134472_1_alg».proof.Proof.Tail

set_option maxRecDepth 16384

noncomputable section

open Idealize.ShloMosaic Idealize.ShloMosaic.TcCoe Idealize.SL.Sem Idealize.ShloMosaic.ValueIdx
open Idealize.ShloMosaic.Pipeline (Dat)

namespace Cert.TwoMlp.Kernel

open Cert.KernelIdeal Cert.KernelIdeal.Gen Cert.TwoMlp

variable (m : (ℓ : Loc nD τ sig) → Buf (Elt Ideal) ℓ) (ρ : Dev nD → PrngReg)

/-- The program's result: entry o is the combination of the two perceptrons' outputs at o. -/
def result (c : Dev nD) : Buf (Elt Ideal) ((c.tc : Thread nD τ).loc main_v25) :=
  (fun i : S1x64.Idx =>
    comb (F := Ideal) (out (argX m c) (argW1a m c) (argB1a m c) (argW2a m c) (argB2a m c) (i 1))
      (out (argX m c) (argW1b m c) (argB1b m c) (argW2b m c) (argB2b m c) (i 1)) : Vec Ideal S1x64 .f32)

/-- What the operations after the call leave in the result buffer. -/
theorem tail_result (c : Dev nD) :
    Pipeline.afterTail₀ cfgs (dats m) 0 (V0 m) [hostOps1, hostOps1_1, hostOps1_2, hostOps1_3] c main_v25 = result m c := by
  funext i
  refine (tail_apply m c i).trans ?_
  rw [final_out m c]
  rfl

/-- Every weakly fair execution of the idealized kernel program ends with the result buffer at result and the
    nine argument arrays as launched. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v25 (Pipeline.mem_restRefs_of main_v25 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩) (run_main m ρ)

end Cert.TwoMlp.Kernel

end
-- ==== Proof.RefIs.lean ====
/-
  The reference program's result is the combination of the two perceptrons' outputs.

  Read one operation at a time, the reference computes, for each of the two perceptrons, the row product of the
  input with the first weights plus the first bias, clamped below at 0 (the hidden row), then the row product of the
  hidden row with the second weights plus the second bias, clamped below at 0 (the output row); and then combines
  the two output rows entry by entry. Over the extended reals each row product is a plain finite sum, the zero
  constant is 0, and the clamp is max, so each output row read at column o is the perceptron's output o (out), and
  the result read at column o is comb of the two outputs there.
-/
import proofs.«116464_j46866683134472_1_alg».proof.Proof.Gen.ReferenceIdeal.Read
import proofs.«116464_j46866683134472_1_alg».proof.Proof.Spec
import Idealize.ShloMosaic.Lib.ValueIdx
import Idealize.ShloMosaic.Lib.Pipeline.Value
import Idealize.ShloMosaic.PureOps.Ideal.Laws

noncomputable section

open scoped BigOperators

namespace Cert.TwoMlp.Reference

open Idealize.ShloMosaic Idealize.ShloMosaic.ValueIdx Cert.ReferenceIdeal Cert.ReferenceIdeal.Read Cert.TwoMlp

/-! ## The index maps of the reference's operations, as indices built from coordinates

The row index of a one-row array is 0, so the left operand of each product is read along row 0; the right operand is
read down the output's column; a bias is read at the output's column. -/

theorem lidx_v0_eq (j : S1x8192.Idx) (k : Fin 4096) : lidx_main_v0 j k = ix2 (0 : Fin 1) k :=
  funext fun a => Fin.ext (by
    match a with
    | ⟨0, _⟩ => have h : (j 0).val < 1 := (j 0).isLt; show (j 0).val = 0; omega
    | ⟨1, _⟩ => rfl)

theorem ridx_v0_eq (j : S1x8192.Idx) (k : Fin 4096) : ridx_main_v0 j k = ix2 k (j 1) :=
  funext fun a => Fin.ext (by
    match a with
    | ⟨0, _⟩ => rfl
    | ⟨1, _⟩ => rfl)

theorem idx_v1_eq (j : S1x8192.Idx) : idx_main_v1 j = ix1 (j 1) :=
  funext fun a => Fin.ext (by
    match a with
    | ⟨0, _⟩ => rfl)

theorem lidx_v4_eq (i : S1x64.Idx) (k : Fin 8192) : lidx_main_v4 i k = ix2 (0 : Fin 1) k :=
  funext fun a => Fin.ext (by
    match a with
    | ⟨0, _⟩ => have h : (i 0).val < 1 := (i 0).isLt; show (i 0).val = 0; omega
    | ⟨1, _⟩ => rfl)

theorem ridx_v4_eq (i : S1x64.Idx) (k : Fin 8192) : ridx_main_v4 i k = ix2 k (i 1) :=
  funext fun a => Fin.ext (by
    match a with
    | ⟨0, _⟩ => rfl
    | ⟨1, _⟩ => rfl)

theorem idx_v5_eq (i : S1x64.Idx) : idx_main_v5 i = ix1 (i 1) :=
  funext fun a => Fin.ext (by
    match a with
    | ⟨0, _⟩ => rfl)

theorem lidx_v8_eq (j : S1x8192.Idx) (k : Fin 4096) : lidx_main_v8 j k = ix2 (0 : Fin 1) k :=
  funext fun a => Fin.ext (by
    match a with
    | ⟨0, _⟩ => have h : (j 0).val < 1 := (j 0).isLt; show (j 0).val = 0; omega
    | ⟨1, _⟩ => rfl)

theorem ridx_v8_eq (j : S1x8192.Idx) (k : Fin 4096) : ridx_main_v8 j k = ix2 k (j 1) :=
  funext fun a => Fin.ext (by
    match a with
    | ⟨0, _⟩ => rfl
    | ⟨1, _⟩ => rfl)

theorem idx_v9_eq (j : S1x8192.Idx) : idx_main_v9 j = ix1 (j 1) :=
  funext fun a => Fin.ext (by
    match a with
    | ⟨0, _⟩ => rfl)

theorem lidx_v12_eq (i : S1x64.Idx) (k : Fin 8192) : lidx_main_v12 i k = ix2 (0 : Fin 1) k :=
  funext fun a => Fin.ext (by
    match a with
    | ⟨0, _⟩ => have h : (i 0).val < 1 := (i 0).isLt; show (i 0).val = 0; omega
    | ⟨1, _⟩ => rfl)

theorem ridx_v12_eq (i : S1x64.Idx) (k : Fin 8192) : ridx_main_v12 i k = ix2 k (i 1) :=
  funext fun a => Fin.ext (by
    match a with
    | ⟨0, _⟩ => rfl
    | ⟨1, _⟩ => rfl)

theorem idx_v13_eq (i : S1x64.Idx) : idx_main_v13 i = ix1 (i 1) :=
  funext fun a => Fin.ext (by
    match a with
    | ⟨0, _⟩ => rfl)

/-! ## The first perceptron -/

/-- The first perceptron's hidden row at column (j 1) is the hidden activation there. -/
theorem v3_apply (x0 : (⟨S1x4096, .f32⟩ : BufTy).Contents (Elt Ideal)) (x1 : (⟨S4096x8192, .f32⟩ : BufTy).Contents (Elt Ideal))
    (x2 : (⟨S8192, .f32⟩ : BufTy).Contents (Elt Ideal)) (j : S1x8192.Idx) :
    val_main_v3 (F := Ideal) x0 x1 x2 j = hidden x0 x1 x2 (j 1) := by
  rw [val_main_v3_apply, val_main_v2_apply, val_main_v0_apply, val_main_v1_apply, val_main_call0_v0_apply,
    val_main_call0_cst_apply]
  simp only [lidx_v0_eq, ridx_v0_eq, idx_v1_eq, Ideal.ofBits_def, Ideal.ofBits_zero_f32, Ideal.addf_def,
    Ideal.maximumf_def]
  rfl

/-- The first perceptron's output row at column (i 1) is the perceptron's output there. -/
theorem v7_apply (x0 : (⟨S1x4096, .f32⟩ : BufTy).Contents (Elt Ideal)) (x1 : (⟨S4096x8192, .f32⟩ : BufTy).Contents (Elt Ideal))
    (x2 : (⟨S8192, .f32⟩ : BufTy).Contents (Elt Ideal)) (x3 : (⟨S8192x64, .f32⟩ : BufTy).Contents (Elt Ideal))
    (x4 : (⟨S64, .f32⟩ : BufTy).Contents (Elt Ideal)) (i : S1x64.Idx) :
    val_main_v7 (F := Ideal) x0 x1 x2 x3 x4 i = out x0 x1 x2 x3 x4 (i 1) := by
  rw [val_main_v7_apply, val_main_v6_apply, val_main_v4_apply, val_main_v5_apply, val_main_call1_v0_apply,
    val_main_call1_cst_apply]
  simp only [v3_apply, lidx_v4_eq, ridx_v4_eq, idx_v5_eq, Ideal.ofBits_def, Ideal.ofBits_zero_f32, Ideal.addf_def,
    Ideal.maximumf_def]
  rfl

/-! ## The second perceptron -/

/-- The second perceptron's hidden row at column (j 1) is the hidden activation there. -/
theorem v11_apply (x0 : (⟨S1x4096, .f32⟩ : BufTy).Contents (Elt Ideal)) (x5 : (⟨S4096x8192, .f32⟩ : BufTy).Contents (Elt Ideal))
    (x6 : (⟨S8192, .f32⟩ : BufTy).Contents (Elt Ideal)) (j : S1x8192.Idx) :
    val_main_v11 (F := Ideal) x0 x5 x6 j = hidden x0 x5 x6 (j 1) := by
  rw [val_main_v11_apply, val_main_v10_apply, val_main_v8_apply, val_main_v9_apply, val_main_call2_v0_apply,
    val_main_call2_cst_apply]
  simp only [lidx_v8_eq, ridx_v8_eq, idx_v9_eq, Ideal.ofBits_def, Ideal.ofBits_zero_f32, Ideal.addf_def,
    Ideal.maximumf_def]
  rfl

/-- The second perceptron's output row at column (i 1) is the perceptron's output there. -/
theorem v15_apply (x0 : (⟨S1x4096, .f32⟩ : BufTy).Contents (Elt Ideal)) (x5 : (⟨S4096x8192, .f32⟩ : BufTy).Contents (Elt Ideal))
    (x6 : (⟨S8192, .f32⟩ : BufTy).Contents (Elt Ideal)) (x7 : (⟨S8192x64, .f32⟩ : BufTy).Contents (Elt Ideal))
    (x8 : (⟨S64, .f32⟩ : BufTy).Contents (Elt Ideal)) (i : S1x64.Idx) :
    val_main_v15 (F := Ideal) x0 x5 x6 x7 x8 i = out x0 x5 x6 x7 x8 (i 1) := by
  rw [val_main_v15_apply, val_main_v14_apply, val_main_v12_apply, val_main_v13_apply, val_main_call3_v0_apply,
    val_main_call3_cst_apply]
  simp only [v11_apply, lidx_v12_eq, ridx_v12_eq, idx_v13_eq, Ideal.ofBits_def, Ideal.ofBits_zero_f32, Ideal.addf_def,
    Ideal.maximumf_def]
  rfl

/-! ## The combination -/

/-- The reference's result at column (i 1) is the combination of the two perceptrons' outputs there: the comparison,
    conjunction, sum, product and selection stages read entry by entry are the nest of selections that comb is, on
    the same constant words. -/
theorem result_apply (x0 : (⟨S1x4096, .f32⟩ : BufTy).Contents (Elt Ideal)) (x1 : (⟨S4096x8192, .f32⟩ : BufTy).Contents (Elt Ideal))
    (x2 : (⟨S8192, .f32⟩ : BufTy).Contents (Elt Ideal)) (x3 : (⟨S8192x64, .f32⟩ : BufTy).Contents (Elt Ideal))
    (x4 : (⟨S64, .f32⟩ : BufTy).Contents (Elt Ideal)) (x5 : (⟨S4096x8192, .f32⟩ : BufTy).Contents (Elt Ideal))
    (x6 : (⟨S8192, .f32⟩ : BufTy).Contents (Elt Ideal)) (x7 : (⟨S8192x64, .f32⟩ : BufTy).Contents (Elt Ideal))
    (x8 : (⟨S64, .f32⟩ : BufTy).Contents (Elt Ideal)) (i : S1x64.Idx) :
    val_main_v32 (F := Ideal) x0 x1 x2 x3 x4 x5 x6 x7 x8 i =
      comb (F := Ideal) (out x0 x1 x2 x3 x4 (i 1)) (out x0 x5 x6 x7 x8 (i 1)) := by
  rw [val_main_v32_apply, val_main_v24_apply, val_main_v27_apply, val_main_v31_apply, val_main_v28_apply,
    val_main_v30_apply, val_main_v29_apply, val_main_v25_apply, val_main_v17_apply, val_main_v19_apply,
    val_main_v21_apply, val_main_v23_apply, val_main_v16_apply, val_main_v18_apply, val_main_v20_apply,
    val_main_v22_apply, val_main_v26_apply, val_main_call4_v1_apply, val_main_call4_v0_apply, val_main_cst_apply,
    val_main_cst_0_apply, val_main_cst_1_apply, val_main_cst_2_apply, val_main_cst_3_apply, val_main_cst_4_apply,
    v7_apply, v15_apply]
  rfl

end Cert.TwoMlp.Reference

end
-- ==== Proof.lean ====
/-
  Two two-layer perceptrons on one input row, combined entry by entry: the kernel against its reference.

  The reference computes, for each perceptron, out = max (max (x · W1 + b1) 0 · W2 + b2) 0 with the hidden sum over
  all 8192 positions at once, and combines the two outputs entry by entry (their mean where both are positive, the
  positive one where the other is 0, else 0). The kernel walks a grid of 2 · 32 points, perceptron by perceptron and
  256 hidden positions at a time: it adds each chunk's second-layer product into a scratch row started at zero, and
  at a perceptron's last chunk stores max (scratch + b2) 0 into that perceptron's row of a [2, 1, 64] array, whose
  two rows the host then combines by the same entrywise rule.
  Over the extended reals the two agree: a change of float format is the identity, a product into a zero
  accumulator is the plain sum, and the running sum of the 32 chunk sums is the sum over all 8192 positions — a
  re-indexing of a finite sum in a commutative monoid, which holds with infinite terms as well, so the finiteness
  of the inputs is not used. The combination is the same function of the two outputs on both sides.
  The three frames are the programs' runs with the results dropped; the idealization rewrote nothing.
-/
import proofs.«116464_j46866683134472_1_alg».proof.Defs
import proofs.«116464_j46866683134472_1_alg».proof.Proof.Gen.Kernel
import proofs.«116464_j46866683134472_1_alg».proof.Proof.Gen.Kernel.Frame
import proofs.«116464_j46866683134472_1_alg».proof.Proof.Gen.KernelIdeal
import proofs.«116464_j46866683134472_1_alg».proof.Proof.Gen.KernelIdeal.Frame
import proofs.«116464_j46866683134472_1_alg».proof.Proof.Gen.ReferenceIdeal
import proofs.«116464_j46866683134472_1_alg».proof.Proof.Gen.ReferenceIdeal.Run
import proofs.«116464_j46866683134472_1_alg».proof.Proof.Gen.ReferenceIdeal.Read
import proofs.«116464_j46866683134472_1_alg».proof.Proof.Gen.Pre_finite_inputs
import proofs.«116464_j46866683134472_1_alg».proof.Proof.KernelRun
import proofs.«116464_j46866683134472_1_alg».proof.Proof.RefIs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the combination of the two perceptrons' outputs of the (agreeing)
    argument arrays. -/
theorem algebraic : Cert.algebraic_KernelIdeal_ReferenceIdeal := by
  intro m ρ m' ρ' _ hagree
  refine ⟨fun c => Cert.TwoMlp.Kernel.result m c, Cert.TwoMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq]
  funext i
  rw [Cert.TwoMlp.Reference.result_apply, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
